-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S32000x1024 : Shape := ⟨2, ![32000, 1024]⟩
abbrev S1024x2048 : Shape := ⟨2, ![1024, 2048]⟩
abbrev S2048x2048 : Shape := ⟨2, ![2048, 2048]⟩
abbrev S2048x32000 : Shape := ⟨2, ![2048, 32000]⟩
abbrev S2048 : Shape := ⟨1, ![2048]⟩
abbrev S32000 : Shape := ⟨1, ![32000]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x32000 : S_.BroadcastsInDim S2048x32000 (![] : Fin 0 → Fin S2048x32000.rank)
  reducesTo_S2048x32000_S_d0_1 : S2048x32000.ReducesTo [0, 1] S_
  bcast_S_S2048 : S_.BroadcastsInDim S2048 (![] : Fin 0 → Fin S2048.rank)
  reducesTo_S2048_S_d0 : S2048.ReducesTo [0] S_
  bcast_S_S32000 : S_.BroadcastsInDim S32000 (![] : Fin 0 → Fin S32000.rank)
  reducesTo_S32000_S_d0 : S32000.ReducesTo [0] S_

variable [Facts]

def fn_part1 {F : FTy → Type} [FloatOps F] (main_arg5 : FVec F S2048 .f32) (main_arg6 : FVec F S32000 .f32) (main_v13 : IVec S_ 1) (main_v16 : IVec S2048x32000 1) : IVec S_ 1 :=
  let main_c_5 : IVec S_ 1 := constantI S_ 1 1#1
  let main_v17 : IVec S_ 1 := (fun x v => Host.reduce IntOp.andi x v reducesTo_S2048x32000_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S32000 .f32 := Host.absf main_arg6
  let main_cst_8 : FVec F S_ .f32 := constant S_ .f32 0x7F800000#32
  let main_v25 : FVec F S32000 .f32 := broadcastInDim S32000 ![] bcast_S_S32000 main_cst_8
  let main_v26 : IVec S32000 1 := cmpf .olt main_v24 main_v25
  let main_c_9 : IVec S_ 1 := constantI S_ 1 1#1
  let main_v27 : IVec S_ 1 := (fun x v => Host.reduce IntOp.andi x v reducesTo_S32000_S_d0 h_S_) main_v26 main_c_9
  let main_v28 : IVec S_ 1 := andi main_v23 main_v27
  main_v28

def fn {F : FTy → Type} [FloatOps F] (main_arg0 : IVec S64x512 32) (main_arg1 : FVec F S32000x1024 .f32) (main_arg2 : FVec F S1024x2048 .f32) (main_arg3 : FVec F S2048x2048 .f32) (main_arg4 : FVec F S2048x32000 .f32) (main_arg5 : FVec F S2048 .f32) (main_arg6 : FVec F S32000 .f32) : IVec S_ 1 :=
  let main_v0 : FVec F S32000x1024 .f32 := Host.absf main_arg1
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_v4 : FVec F S1024x2048 .f32 := Host.absf main_arg2
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x32000 .f32 := Host.absf main_arg4
  let main_cst_4 : FVec F S_ .f32 := constant S_ .f32 0x7F800000#32
  let main_v15 : FVec F S2048x32000 .f32 := broadcastInDim S2048x32000 ![] bcast_S_S2048x32000 main_cst_4
  let main_v16 : IVec S2048x32000 1 := cmpf .olt main_v14 main_v15
  fn_part1 (F := F) main_arg5 main_arg6 main_v13 main_v16
-- ==== Kernel.lean ====
abbrev S64x512 : Shape := ⟨2, ![64, 512]⟩
abbrev S32000x1024 : Shape := ⟨2, ![32000, 1024]⟩
abbrev S1024x2048 : Shape := ⟨2, ![1024, 2048]⟩
abbrev S2048x2048 : Shape := ⟨2, ![2048, 2048]⟩
abbrev S2048x32000 : Shape := ⟨2, ![2048, 32000]⟩
abbrev S2048 : Shape := ⟨1, ![2048]⟩
abbrev S32000 : Shape := ⟨1, ![32000]⟩
abbrev S64x1 : Shape := ⟨2, ![64, 1]⟩
abbrev S64 : Shape := ⟨1, ![64]⟩
abbrev S_ : Shape := ⟨0, ![]⟩
abbrev S64x1024 : Shape := ⟨2, ![64, 1024]⟩
abbrev S1x2048 : Shape := ⟨2, ![1, 2048]⟩
abbrev S1x32000 : Shape := ⟨2, ![1, 32000]⟩
abbrev S64x2048 : Shape := ⟨2, ![64, 2048]⟩
abbrev S32x1024 : Shape := ⟨2, ![32, 1024]⟩
abbrev S32x2048 : Shape := ⟨2, ![32, 2048]⟩
abbrev S64x32000 : Shape := ⟨2, ![64, 32000]⟩
abbrev S2048x1280 : Shape := ⟨2, ![2048, 1280]⟩
abbrev S1x1280 : Shape := ⟨2, ![1, 1280]⟩
abbrev S64x1280 : Shape := ⟨2, ![64, 1280]⟩

abbrev nBuf : Space → Nat
  | .hbm => 22
  | .vmem => 14
  | .smem => 0
  | _ => 0

abbrev bufTy : (tb : Table) → Fin (tcTables nBuf tb) → BufTy
  | .hbm, ⟨0, _⟩ => ⟨S64x512, .i32⟩
  | .hbm, ⟨1, _⟩ => ⟨S32000x1024, .f32⟩
  | .hbm, ⟨2, _⟩ => ⟨S1024x2048, .f32⟩
  | .hbm, ⟨3, _⟩ => ⟨S2048x2048, .f32⟩
  | .hbm, ⟨4, _⟩ => ⟨S2048x32000, .f32⟩
  | .hbm, ⟨5, _⟩ => ⟨S2048, .f32⟩
  | .hbm, ⟨6, _⟩ => ⟨S32000, .f32⟩
  | .hbm, ⟨7, _⟩ => ⟨S64x1, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S64x1024, .f32⟩
  | .hbm, ⟨18, _⟩ => ⟨S1x2048, .f32⟩
  | .hbm, ⟨19, _⟩ => ⟨S1x32000, .f32⟩
  | .hbm, ⟨20, _⟩ => ⟨S64x2048, .bf16⟩
  | .hbm, ⟨21, _⟩ => ⟨S64x32000, .f32⟩
  | .local _ .vmem, ⟨0, _⟩ => ⟨S32x1024, .f32⟩
  | .local _ .vmem, ⟨1, _⟩ => ⟨S32x1024, .f32⟩
  | .local _ .vmem, ⟨2, _⟩ => ⟨S1024x2048, .f32⟩
  | .local _ .vmem, ⟨3, _⟩ => ⟨S2048x2048, .f32⟩
  | .local _ .vmem, ⟨4, _⟩ => ⟨S1x2048, .f32⟩
  | .local _ .vmem, ⟨5, _⟩ => ⟨S32x2048, .bf16⟩
  | .local _ .vmem, ⟨6, _⟩ => ⟨S32x2048, .bf16⟩
  | .local _ .vmem, ⟨7, _⟩ => ⟨S64x2048, .bf16⟩
  | .local _ .vmem, ⟨8, _⟩ => ⟨S2048x1280, .f32⟩
  | .local _ .vmem, ⟨9, _⟩ => ⟨S2048x1280, .f32⟩
  | .local _ .vmem, ⟨10, _⟩ => ⟨S1x1280, .f32⟩
  | .local _ .vmem, ⟨11, _⟩ => ⟨S1x1280, .f32⟩
  | .local _ .vmem, ⟨12, _⟩ => ⟨S64x1280, .f32⟩
  | .local _ .vmem, ⟨13, _⟩ => ⟨S64x1280, .f32⟩
  | _, _ => ⟨S64x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S64x512_S64x1_0_511 : S64x512.Slices ![0, 511] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  shapeCasts_S2048_S1x2048 : S2048.ShapeCasts S1x2048
  shapeCasts_S32000_S1x32000 : S32000.ShapeCasts S1x32000
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S32x2048 : S1x2048.Broadcasts S32x2048
  inb_S2048x2048_S2048x2048_0_0 : ∀ a, (![0, 0] : Fin 2 → Nat) a + S2048x2048.size a ≤ S2048x2048.size a
  h_S2048x2048 : 0 < S2048x2048.numel
  inb_S32x2048_S32x2048_0_0 : ∀ a, (![0, 0] : Fin 2 → Nat) a + S32x2048.size a ≤ S32x2048.size a
  h_S32x2048 : 0 < S32x2048.numel
  packedbf16_S32x2048_S32x2048_0_0 : (Rect.unit (s := S32x2048) ![0, 0] S32x2048.size inb_S32x2048_S32x2048_0_0).PackedRows (EltTy.packing .bf16)
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048x1280_S2048x1280_0_0 : ∀ a, (![0, 0] : Fin 2 → Nat) a + S2048x1280.size a ≤ S2048x1280.size a
  h_S2048x1280 : 0 < S2048x1280.numel
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S64x1280 : S1x1280.Broadcasts S64x1280
  inb_S64x1280_S64x1280_0_0 : ∀ a, (![0, 0] : Fin 2 → Nat) a + S64x1280.size a ≤ S64x1280.size a
  h_S64x1280 : 0 < S64x1280.numel
  gather_S32000x1024_S64x1_S64x1024_1_0_n_n_0_1_11024_wf : GatherDims.WF S32000x1024 S64x1 S64x1024 [1] [0] [] [0] [] 1 ![1, 1024]
  dot_S32x1024_S1024x2048_S32x2048_1_0_0_1_n_n_wf : DotDims.WF S32x1024 S1024x2048 S32x2048 [1] [0] [0] [1] [] []
  dot_S32x2048_S2048x2048_S32x2048_1_0_0_1_n_n_wf : DotDims.WF S32x2048 S2048x2048 S32x2048 [1] [0] [0] [1] [] []
  dot_S64x2048_S2048x1280_S64x1280_1_0_0_1_n_n_wf : DotDims.WF S64x2048 S2048x1280 S64x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S64x1024.size a
  hwx0_0 : ∀ i : grid0.Coords, EltTy.bits .f32 = 32 ∨ (Rect.block (s := S64x1024) S32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .f32 = 32 ∨ (Rect.block (s := S2048x2048) S2048x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x2048.size a ≤ S64x2048.size a
  hwx0_4 : ∀ i : grid0.Coords, EltTy.bits .bf16 = 32 ∨ (Rect.block (s := S64x2048) S32x2048.size (cc0_transform_4 i) (hinb0_4 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x2048.size a ≤ S64x2048.size a
  hwx1_0 : ∀ i : grid1.Coords, EltTy.bits .bf16 = 32 ∨ (Rect.block (s := S64x2048) S64x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1280.size a ≤ S2048x32000.size a
  hwx1_1 : ∀ i : grid1.Coords, EltTy.bits .f32 = 32 ∨ (Rect.block (s := S2048x32000) S2048x1280.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x32000.size a
  hwx1_2 : ∀ i : grid1.Coords, EltTy.bits .f32 = 32 ∨ (Rect.block (s := S1x32000) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x1280.size a ≤ S64x32000.size a
  hwx1_3 : ∀ i : grid1.Coords, EltTy.bits .f32 = 32 ∨ (Rect.block (s := S64x32000) S64x1280.size (cc1_transform_3 i) (hinb1_3 i)).WholeWords (EltTy.packing .f32)

variable [Facts₀]

def gather_S32000x1024_S64x1_S64x1024_1_0_n_n_0_1_11024 : GatherDims S32000x1024 S64x1 S64x1024 where
  offsetDims := [1]
  collapsedSliceDims := [0]
  operandBatchingDims := []
  startIndicesBatchingDims := []
  startIndexMap := [0]
  indexVectorDim := 1
  sliceSizes := ![1, 1024]
  wf := gather_S32000x1024_S64x1_S64x1024_1_0_n_n_0_1_11024_wf
def dot_S32x1024_S1024x2048_S32x2048_1_0_0_1_n_n : DotDims S32x1024 S1024x2048 S32x2048 where
  lhsContracting := [1]
  rhsContracting := [0]
  lhsNonContracting := [0]
  rhsNonContracting := [1]
  lhsBatch := []
  rhsBatch := []
  wf := dot_S32x1024_S1024x2048_S32x2048_1_0_0_1_n_n_wf
def dot_S32x2048_S2048x2048_S32x2048_1_0_0_1_n_n : DotDims S32x2048 S2048x2048 S32x2048 where
  lhsContracting := [1]
  rhsContracting := [0]
  lhsNonContracting := [0]
  rhsNonContracting := [1]
  lhsBatch := []
  rhsBatch := []
  wf := dot_S32x2048_S2048x2048_S32x2048_1_0_0_1_n_n_wf
def dot_S64x2048_S2048x1280_S64x1280_1_0_0_1_n_n : DotDims S64x2048 S2048x1280 S64x1280 where
  lhsContracting := [1]
  rhsContracting := [0]
  lhsNonContracting := [0]
  rhsNonContracting := [1]
  lhsBatch := []
  rhsBatch := []
  wf := dot_S64x2048_S2048x1280_S64x1280_1_0_0_1_n_n_wf

abbrev win0_0 : Pipeline.Window sig grid0 :=
  Pipeline.Window.ofSpec (Memref.whole main_v8) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S32x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S64x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2048x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S64x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x512 : Shape := ⟨2, ![64, 512]⟩
abbrev S32000x1024 : Shape := ⟨2, ![32000, 1024]⟩
abbrev S1024x2048 : Shape := ⟨2, ![1024, 2048]⟩
abbrev S2048x2048 : Shape := ⟨2, ![2048, 2048]⟩
abbrev S2048x32000 : Shape := ⟨2, ![2048, 32000]⟩
abbrev S2048 : Shape := ⟨1, ![2048]⟩
abbrev S32000 : Shape := ⟨1, ![32000]⟩
abbrev S_ : Shape := ⟨0, ![]⟩
abbrev S64x512x1 : Shape := ⟨3, ![64, 512, 1]⟩
abbrev S64x512x1024 : Shape := ⟨3, ![64, 512, 1024]⟩
abbrev S64x512x2048 : Shape := ⟨3, ![64, 512, 2048]⟩
abbrev S1x1x2048 : Shape := ⟨3, ![1, 1, 2048]⟩
abbrev S64x1x2048 : Shape := ⟨3, ![64, 1, 2048]⟩
abbrev S64x2048 : Shape := ⟨2, ![64, 2048]⟩
abbrev S64x32000 : Shape := ⟨2, ![64, 32000]⟩
abbrev S1x32000 : Shape := ⟨2, ![1, 32000]⟩

abbrev nBuf : Space → Nat
  | .hbm => 47
  | .vmem => 0
  | .smem => 0
  | _ => 0

abbrev bufTy : (tb : Table) → Fin (tcTables nBuf tb) → BufTy
  | .hbm, ⟨0, _⟩ => ⟨S64x512, .i32⟩
  | .hbm, ⟨1, _⟩ => ⟨S32000x1024, .f32⟩
  | .hbm, ⟨2, _⟩ => ⟨S1024x2048, .f32⟩
  | .hbm, ⟨3, _⟩ => ⟨S2048x2048, .f32⟩
  | .hbm, ⟨4, _⟩ => ⟨S2048x32000, .f32⟩
  | .hbm, ⟨5, _⟩ => ⟨S2048, .f32⟩
  | .hbm, ⟨6, _⟩ => ⟨S32000, .f32⟩
  | .hbm, ⟨7, _⟩ => ⟨S_, .i32⟩
  | .hbm, ⟨8, _⟩ => ⟨S64x512, .i32⟩
  | .hbm, ⟨9, _⟩ => ⟨S64x512, .i1⟩
  | .hbm, ⟨10, _⟩ => ⟨S_, .i32⟩
  | .hbm, ⟨11, _⟩ => ⟨S64x512, .i32⟩
  | .hbm, ⟨12, _⟩ => ⟨S64x512, .i32⟩
  | .hbm, ⟨13, _⟩ => ⟨S64x512, .i32⟩
  | .hbm, ⟨14, _⟩ => ⟨S64x512x1, .i32⟩
  | .hbm, ⟨15, _⟩ => ⟨S64x512x1024, .f32⟩
  | .hbm, ⟨16, _⟩ => ⟨S64x512x2048, .f32⟩
  | .hbm, ⟨17, _⟩ => ⟨S1x1x2048, .f32⟩
  | .hbm, ⟨18, _⟩ => ⟨S64x512x2048, .f32⟩
  | .hbm, ⟨19, _⟩ => ⟨S64x512x2048, .f32⟩
  | .hbm, ⟨20, _⟩ => ⟨S64x512x2048, .f32⟩
  | .hbm, ⟨21, _⟩ => ⟨S64x512x2048, .f32⟩
  | .hbm, ⟨22, _⟩ => ⟨S1x1x2048, .f32⟩
  | .hbm, ⟨23, _⟩ => ⟨S64x512x2048, .f32⟩
  | .hbm, ⟨24, _⟩ => ⟨S64x512x2048, .f32⟩
  | .hbm, ⟨25, _⟩ => ⟨S64x512x2048, .f32⟩
  | .hbm, ⟨26, _⟩ => ⟨S64x512x2048, .f32⟩
  | .hbm, ⟨27, _⟩ => ⟨S1x1x2048, .f32⟩
  | .hbm, ⟨28, _⟩ => ⟨S64x512x2048, .f32⟩
  | .hbm, ⟨29, _⟩ => ⟨S64x512x2048, .f32⟩
  | .hbm, ⟨30, _⟩ => ⟨S64x512x2048, .f32⟩
  | .hbm, ⟨31, _⟩ => ⟨S64x512x2048, .f32⟩
  | .hbm, ⟨32, _⟩ => ⟨S1x1x2048, .f32⟩
  | .hbm, ⟨33, _⟩ => ⟨S64x512x2048, .f32⟩
  | .hbm, ⟨34, _⟩ => ⟨S64x512x2048, .f32⟩
  | .hbm, ⟨35, _⟩ => ⟨S64x512x2048, .f32⟩
  | .hbm, ⟨36, _⟩ => ⟨S64x512x2048, .f32⟩
  | .hbm, ⟨37, _⟩ => ⟨S1x1x2048, .f32⟩
  | .hbm, ⟨38, _⟩ => ⟨S64x512x2048, .f32⟩
  | .hbm, ⟨39, _⟩ => ⟨S64x512x2048, .f32⟩
  | .hbm, ⟨40, _⟩ => ⟨S64x512x2048, .f32⟩
  | .hbm, ⟨41, _⟩ => ⟨S64x1x2048, .f32⟩
  | .hbm, ⟨42, _⟩ => ⟨S64x2048, .f32⟩
  | .hbm, ⟨43, _⟩ => ⟨S64x32000, .f32⟩
  | .hbm, ⟨44, _⟩ => ⟨S1x32000, .f32⟩
  | .hbm, ⟨45, _⟩ => ⟨S64x32000, .f32⟩
  | .hbm, ⟨46, _⟩ => ⟨S64x32000, .f32⟩
  | _, _ => ⟨S64x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]

class Facts₀ : Prop where
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S2048_S1x1x2048_2 : S2048.BroadcastsInDim S1x1x2048 (![2] : Fin 1 → Fin S1x1x2048.rank)
  bcast_S1x1x2048_S64x512x2048_0_1_2 : S1x1x2048.BroadcastsInDim S64x512x2048 (![0, 1, 2] : Fin 3 → Fin S64x512x2048.rank)
  slices_S64x512x2048_S64x1x2048_0_511_0 : S64x512x2048.Slices ![0, 511, 0] S64x1x2048
  shapeCasts_S64x1x2048_S64x2048 : S64x1x2048.ShapeCasts S64x2048
  bcast_S32000_S1x32000_1 : S32000.BroadcastsInDim S1x32000 (![1] : Fin 1 → Fin S1x32000.rank)
  bcast_S1x32000_S64x32000_0_1 : S1x32000.BroadcastsInDim S64x32000 (![0, 1] : Fin 2 → Fin S64x32000.rank)
  gather_S32000x1024_S64x512x1_S64x512x1024_2_0_n_n_0_2_11024_wf : GatherDims.WF S32000x1024 S64x512x1 S64x512x1024 [2] [0] [] [0] [] 2 ![1, 1024]
  dot_S64x512x1024_S1024x2048_S64x512x2048_2_0_01_1_n_n_wf : DotDims.WF S64x512x1024 S1024x2048 S64x512x2048 [2] [0] [0, 1] [1] [] []
  dot_S64x512x2048_S2048x2048_S64x512x2048_2_0_01_1_n_n_wf : DotDims.WF S64x512x2048 S2048x2048 S64x512x2048 [2] [0] [0, 1] [1] [] []
  dot_S64x2048_S2048x32000_S64x32000_1_0_0_1_n_n_wf : DotDims.WF S64x2048 S2048x32000 S64x32000 [1] [0] [0] [1] [] []

variable [Facts₀]

def gather_S32000x1024_S64x512x1_S64x512x1024_2_0_n_n_0_2_11024 : GatherDims S32000x1024 S64x512x1 S64x512x1024 where
  offsetDims := [2]
  collapsedSliceDims := [0]
  operandBatchingDims := []
  startIndicesBatchingDims := []
  startIndexMap := [0]
  indexVectorDim := 2
  sliceSizes := ![1, 1024]
  wf := gather_S32000x1024_S64x512x1_S64x512x1024_2_0_n_n_0_2_11024_wf
def dot_S64x512x1024_S1024x2048_S64x512x2048_2_0_01_1_n_n : DotDims S64x512x1024 S1024x2048 S64x512x2048 where
  lhsContracting := [2]
  rhsContracting := [0]
  lhsNonContracting := [0, 1]
  rhsNonContracting := [1]
  lhsBatch := []
  rhsBatch := []
  wf := dot_S64x512x1024_S1024x2048_S64x512x2048_2_0_01_1_n_n_wf
def dot_S64x512x2048_S2048x2048_S64x512x2048_2_0_01_1_n_n : DotDims S64x512x2048 S2048x2048 S64x512x2048 where
  lhsContracting := [2]
  rhsContracting := [0]
  lhsNonContracting := [0, 1]
  rhsNonContracting := [1]
  lhsBatch := []
  rhsBatch := []
  wf := dot_S64x512x2048_S2048x2048_S64x512x2048_2_0_01_1_n_n_wf
def dot_S64x2048_S2048x32000_S64x32000_1_0_0_1_n_n : DotDims S64x2048 S2048x32000 S64x32000 where
  lhsContracting := [1]
  rhsContracting := [0]
  lhsNonContracting := [0]
  rhsNonContracting := [1]
  lhsBatch := []
  rhsBatch := []
  wf := dot_S64x2048_S2048x32000_S64x32000_1_0_0_1_n_n_wf

class Facts : Prop extends Facts₀ where

variable [Facts]
-- ==== Proof.Spec.lean ====
/-
  The function both programs compute, written once over plain index types.

  A row of the batch is reduced to ONE token — the last of its 512 — whose embedding row `x` is pushed through five
  dense layers `v ↦ tanh (v · W + b)` (the first with the input weights, the other four with the recurrent weights, all
  with the same bias) and then through the affine read-out `h ↦ h · W_hy + b_y`.  Everything is on the extended
  reals: a sum is a finite sum in `EReal`, a product its product, `tanh` the ideal instance's.  A layer only mixes the
  entries of one row, so the value at batch row `r` depends on the other rows and the other time steps not at all:
  that is why evaluating the layers at every time step and then keeping the last gives the same numbers.
-/
import Idealize.ShloMosaic.PureOps.Ideal
import Idealize.ShloMosaic.Lib.ValueIdx

noncomputable section

open scoped BigOperators

namespace Cert.LastStep

open Idealize.ShloMosaic Idealize.ShloMosaic.ValueIdx

/-- The affine map of a row: entry `j` of `v · W + b`. -/
def affine {K N : Nat} (v : Fin K → EReal) (W : (⟨2, ![K, N]⟩ : Shape).Idx → EReal) (b : Fin N → EReal) : Fin N → EReal :=
  fun j => (∑ k : Fin K, v k * W (ix2 k j)) + b j

/-- One dense layer of a row: `tanh` of the affine map, entry by entry. -/
def layer {K N : Nat} (v : Fin K → EReal) (W : (⟨2, ![K, N]⟩ : Shape).Idx → EReal) (b : Fin N → EReal) : Fin N → EReal :=
  fun j => Ideal.tanh (affine v W b j)

/-- The five layers of a row: the input layer, then the recurrent layer four times. -/
def hidden (x : Fin 1024 → EReal) (Wxh : (⟨2, ![1024, 2048]⟩ : Shape).Idx → EReal)
    (Whh : (⟨2, ![2048, 2048]⟩ : Shape).Idx → EReal) (b : Fin 2048 → EReal) : Fin 2048 → EReal :=
  layer (layer (layer (layer (layer x Wxh b) Whh b) Whh b) Whh b) Whh b

/-- A token word as an index into the vocabulary: a negative word counts from the end (plus 32000). -/
def wrap (x : BitVec 32) : BitVec 32 := Scalar.select (IntOp.cmpi .slt x 0#32) (IntOp.addi x 32000#32) x

/-- The embedding row a token word selects: the wrapped word read signed and clamped into the table. -/
def row (x : BitVec 32) : Fin 32000 := ⟨min (wrap x).toInt.toNat 31999, by omega⟩

/-- The embedding of batch row `r`'s last token. -/
def lastEmb (X : (⟨2, ![64, 512]⟩ : Shape).Idx → BitVec 32) (emb : (⟨2, ![32000, 1024]⟩ : Shape).Idx → EReal)
    (r : Fin 64) : Fin 1024 → EReal :=
  fun e => emb (ix2 (row (X (ix2 r (511 : Fin 512)))) e)

/-- The result at batch row `r` and vocabulary entry `v`. -/
def resultAt (X : (⟨2, ![64, 512]⟩ : Shape).Idx → BitVec 32) (emb : (⟨2, ![32000, 1024]⟩ : Shape).Idx → EReal)
    (Wxh : (⟨2, ![1024, 2048]⟩ : Shape).Idx → EReal) (Whh : (⟨2, ![2048, 2048]⟩ : Shape).Idx → EReal)
    (Why : (⟨2, ![2048, 32000]⟩ : Shape).Idx → EReal) (bh : (⟨1, ![2048]⟩ : Shape).Idx → EReal)
    (bo : (⟨1, ![32000]⟩ : Shape).Idx → EReal) (r : Fin 64) (v : Fin 32000) : EReal :=
  affine (hidden (lastEmb X emb r) Wxh Whh (fun j => bh (ix1 j))) Why (fun u => bo (ix1 u)) v

/-- The whole result array. -/
def result (X : (⟨2, ![64, 512]⟩ : Shape).Idx → BitVec 32) (emb : (⟨2, ![32000, 1024]⟩ : Shape).Idx → EReal)
    (Wxh : (⟨2, ![1024, 2048]⟩ : Shape).Idx → EReal) (Whh : (⟨2, ![2048, 2048]⟩ : Shape).Idx → EReal)
    (Why : (⟨2, ![2048, 32000]⟩ : Shape).Idx → EReal) (bh : (⟨1, ![2048]⟩ : Shape).Idx → EReal)
    (bo : (⟨1, ![32000]⟩ : Shape).Idx → EReal) : (⟨2, ![64, 32000]⟩ : Shape).Idx → EReal :=
  fun i => resultAt X emb Wxh Whh Why bh bo ⟨(i 0).val, idx2_lt0 i⟩ ⟨(i 1).val, idx2_lt1 i⟩

theorem result_ix2 (X : (⟨2, ![64, 512]⟩ : Shape).Idx → BitVec 32) (emb : (⟨2, ![32000, 1024]⟩ : Shape).Idx → EReal)
    (Wxh : (⟨2, ![1024, 2048]⟩ : Shape).Idx → EReal) (Whh : (⟨2, ![2048, 2048]⟩ : Shape).Idx → EReal)
    (Why : (⟨2, ![2048, 32000]⟩ : Shape).Idx → EReal) (bh : (⟨1, ![2048]⟩ : Shape).Idx → EReal)
    (bo : (⟨1, ![32000]⟩ : Shape).Idx → EReal) (r : Fin 64) (v : Fin 32000) :
    result X emb Wxh Whh Why bh bo (ix2 r v) = resultAt X emb Wxh Whh Why bh bo r v := rfl

end Cert.LastStep

end
-- ==== Proof.KArr.lean ====
/-
  What each pallas_call leaves in its output ARRAY, as one function of the arrays it was entered with.

  Region 0 walks the 64 batch rows in two blocks of 32; its weights and bias are whole-array blocks, the same at
  both points.  Point `t` writes back rows `32 t … 32 t + 31` of the hidden state, and row `r` of the hidden state is
  the five layers applied to row `r` of the gathered embeddings: a block of rows of ONE whole-array function, and the
  two blocks cover the array.
  Region 1 walks the 32000 vocabulary columns in 25 blocks of 1280; the hidden state is a whole-array block.  Point
  `t` writes back columns `1280 t … 1280 t + 1279` of `h · W_hy + b_y`; the 25 blocks cover the array.
-/
import proofs.«411068_j87351044866483_3_alg».proof.Proof.Gen.KernelIdeal.Frame
import proofs.«411068_j87351044866483_3_alg».proof.Proof.Spec
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.LastStep
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Region 0 -/

/-- The block indices of region 0's windows at a point: the embedding rows and the output move with the point along
    the rows, the weights and the bias stay. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 2 :=
  (by decide +kernel : ∀ t : Fin grid0.N, _)

/-- The arrays region 0 reads, at their literal types. -/
abbrev embRows (c : Dev nD) : S64x1024.Idx → EReal := V c main_v8
abbrev wIn (c : Dev nD) : S1024x2048.Idx → EReal := V c main_arg2
abbrev wRec (c : Dev nD) : S2048x2048.Idx → EReal := V c main_arg3
abbrev biasRow (c : Dev nD) : S1x2048.Idx → EReal := V c main_v9

/-- Entry `(r, j)` of the hidden state: the five layers of row `r` of the embeddings. -/
def hiddenAt (c : Dev nD) (r : Fin 64) (j : Fin 2048) : EReal :=
  hidden (fun e => embRows V c (ix2 r e)) (wIn V c) (wRec V c) (fun j => biasRow V c (ix2 (0 : Fin 1) j)) j

/-- The hidden state as an array. -/
def hiddenArr (c : Dev nD) : S64x2048.Idx → EReal :=
  fun i => hiddenAt V c ⟨(i 0).val, idx2_lt0 i⟩ ⟨(i 1).val, idx2_lt1 i⟩

/-- Row `p` of the embedding block at point `t` is row `32 t + p` of the array. -/
theorem blk0_0 (c : Dev nD) (t : Fin cfg0.N) (p : Fin 32) (e : Fin 1024) (h : t.val * 32 + p.val < 64) :
    (iblk0 V c 0 t : S32x1024.Idx → EReal) (ix2 p e) = embRows V c (ix2 ⟨t.val * 32 + p.val, h⟩ e) := by
  obtain ⟨e0, e1, -⟩ := idx0 t
  show V c main_v8 (((cfg0.win 0).blk t).view.emb (ix2 p e)) = V c main_v8 _
  refine congrArg (V c main_v8) ?_
  funext a; apply Fin.ext
  match a with
  | ⟨0, _⟩ => show win0_0.index t (0 : Fin 2) * 32 + 1 * p.val = t.val * 32 + p.val; omega
  | ⟨1, _⟩ => show win0_0.index t (1 : Fin 2) * 1024 + 1 * e.val = e.val; omega

/-- The input weights' block is the whole array at every point. -/
theorem blk0_1 (c : Dev nD) (t : Fin cfg0.N) : (iblk0 V c 1 t : S1024x2048.Idx → EReal) = wIn V c := by
  obtain ⟨-, -, e2, e3, -⟩ := idx0 t
  funext y
  show V c main_arg2 (((cfg0.win 1).blk t).view.emb y) = V c main_arg2 y
  refine congrArg (V c main_arg2) ?_
  funext a; apply Fin.ext
  match a with
  | ⟨0, _⟩ => show win0_1.index t (0 : Fin 2) * 1024 + 1 * (y 0).val = (y 0).val; omega
  | ⟨1, _⟩ => show win0_1.index t (1 : Fin 2) * 2048 + 1 * (y 1).val = (y 1).val; omega

/-- The recurrent weights' block is the whole array at every point. -/
theorem blk0_2 (c : Dev nD) (t : Fin cfg0.N) : (iblk0 V c 2 t : S2048x2048.Idx → EReal) = wRec V c := by
  obtain ⟨-, -, -, -, e4, e5, -⟩ := idx0 t
  funext y
  show V c main_arg3 (((cfg0.win 2).blk t).view.emb y) = V c main_arg3 y
  refine congrArg (V c main_arg3) ?_
  funext a; apply Fin.ext
  match a with
  | ⟨0, _⟩ => show win0_2.index t (0 : Fin 2) * 2048 + 1 * (y 0).val = (y 0).val; omega
  | ⟨1, _⟩ => show win0_2.index t (1 : Fin 2) * 2048 + 1 * (y 1).val = (y 1).val; omega

/-- The bias row's block is the whole array at every point. -/
theorem blk0_3 (c : Dev nD) (t : Fin cfg0.N) : (iblk0 V c 3 t : S1x2048.Idx → EReal) = biasRow V c := by
  obtain ⟨-, -, -, -, -, -, e6, e7, -⟩ := idx0 t
  funext y
  show V c main_v9 (((cfg0.win 3).blk t).view.emb y) = V c main_v9 y
  refine congrArg (V c main_v9) ?_
  funext a; apply Fin.ext
  match a with
  | ⟨0, _⟩ => show win0_3.index t (0 : Fin 2) * 1 + 1 * (y 0).val = (y 0).val; omega
  | ⟨1, _⟩ => show win0_3.index t (1 : Fin 2) * 2048 + 1 * (y 1).val = (y 1).val; omega

/-- An index of the hidden-state array is in point `t`'s block iff each coordinate is in the block's range. -/
theorem mem_blk0 (t : Fin cfg0.N) (i : S64x2048.Idx) :
    i ∈ ((cfg0.win 4).blk t).view.set ↔ ∀ a : Fin 2, win0_4.index t a * S32x2048.size a ≤ (i a).val ∧ (i a).val < win0_4.index t a * S32x2048.size a + S32x2048.size a := by
  show i ∈ ((View.whole main_v11).slice (win0_4.rect t)).set ↔ _
  rw [View.set_slice_whole, Rect.mem_set_unit]
  exact Iff.rfl

/-- The two blocks of 32 rows cover the 64 rows: row `r` is in block `r / 32`. -/
theorem cover0 (i : S64x2048.Idx) : ∃ t : Fin cfg0.N, (cfg0.win 4).flush t = true ∧ i ∈ ((cfg0.win 4).blk t).view.set := by
  have hi0 : (i 0).val < 64 := (i 0).isLt
  have hi1 : (i 1).val < 2048 := (i 1).isLt
  have hN : cfg0.N = 2 := N_0
  obtain ⟨t, ht⟩ : ∃ t : Fin cfg0.N, t.val = (i 0).val / 32 := ⟨⟨(i 0).val / 32, by rw [hN]; omega⟩, rfl⟩
  obtain ⟨-, -, -, -, -, -, -, -, e8, e9, -⟩ := idx0 t
  refine ⟨t, flush0_4 t, ?_⟩
  rw [mem_blk0]
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 2048 ≤ (i 1).val ∧ (i 1).val < win0_4.index t (1 : Fin 2) * 2048 + 2048; omega

section Body0

-- What the body of region 0 leaves in its output block, entry by entry: the five layers of the block's rows.
variable (hbody0 : ∀ (x0 : Vec Ideal S32x1024 .f32) (x1 : Vec Ideal S1024x2048 .f32) (x2 : Vec Ideal S2048x2048 .f32)
    (x3 : Vec Ideal S1x2048 .f32) (p : Fin 32) (q : Fin 2048),
    out0_4 (F := Ideal) x0 x1 x2 x3 (ix2 p q) = hidden (fun e => x0 (ix2 p e)) x1 x2 (fun j => x3 (ix2 (0 : Fin 1) j)) q)

include hbody0 in
/-- What point `t` writes back is block `t` of the hidden-state array. -/
theorem flushed0_eq (c : Dev nD) (t : Fin cfg0.N) :
    (dat0 V c).flushed 4 t = ((cfg0.win 4).blk t).view.read (Elt Ideal) (hiddenArr V c) := by
  show (cfg0.win 4).cut (grid0.coords t) ((dat0 V c).after 4 t) = _
  rw [after0_4]
  obtain ⟨-, -, -, -, -, -, -, -, e8, e9, ht⟩ := idx0 t
  funext y
  have hp : (y 0).val < 32 := (y 0).isLt
  have hq : (y 1).val < 2048 := (y 1).isLt
  obtain ⟨p, q, rfl⟩ : ∃ (p : Fin 32) (q : Fin 2048), y = ix2 p q :=
    ⟨⟨(y 0).val, hp⟩, ⟨(y 1).val, hq⟩, by funext a; match a with | ⟨0, _⟩ => rfl | ⟨1, _⟩ => rfl⟩
  have hr : t.val * 32 + p.val < 64 := by have := p.isLt; omega
  show out0_4 (iblk0 V c 0 t) (iblk0 V c 1 t) (iblk0 V c 2 t) (iblk0 V c 3 t) (ix2 p q)
    = hiddenArr V c (((cfg0.win 4).blk t).view.emb (ix2 p q))
  refine (hbody0 (iblk0 V c 0 t) (iblk0 V c 1 t) (iblk0 V c 2 t) (iblk0 V c 3 t) p q).trans ?_
  have er : (⟨((((cfg0.win 4).blk t).view.emb (ix2 p q)) 0).val, idx2_lt0 _⟩ : Fin 64) = ⟨t.val * 32 + p.val, hr⟩ :=
    Fin.ext (by show win0_4.index t (0 : Fin 2) * 32 + 1 * p.val = t.val * 32 + p.val; omega)
  have ej : (⟨((((cfg0.win 4).blk t).view.emb (ix2 p q)) 1).val, idx2_lt1 _⟩ : Fin 2048) = q :=
    Fin.ext (by show win0_4.index t (1 : Fin 2) * 2048 + 1 * q.val = q.val; omega)
  show _ = hiddenAt V c ⟨_, _⟩ ⟨_, _⟩
  rw [er, ej]
  unfold hiddenAt
  have h0 : (fun e => (iblk0 V c 0 t : S32x1024.Idx → EReal) (ix2 p e)) = fun e => embRows V c (ix2 ⟨t.val * 32 + p.val, hr⟩ e) :=
    funext fun e => blk0_0 V c t p e hr
  rw [h0, blk0_1, blk0_2, blk0_3]

include hbody0 in
/-- The hidden-state array after region 0. -/
theorem final0 (c : Dev nD) : (dat0 V c).arrAt 4 cfg0.N = hiddenArr V c :=
  (dat0 V c).arrAt_eq_of_cover 4 (hiddenArr V c) (fun t _ => flushed0_eq V hbody0 c t) cover0

end Body0

/-! ## Region 1 -/

/-- The block indices of region 1's windows at a point: the hidden state stays, the read-out weights, the read-out
    bias and the output move with the point along the vocabulary columns. -/
theorem idx1 : ∀ t : Fin cfg1.N,
    win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val ∧ t.val < 25 :=
  (by decide +kernel : ∀ t : Fin grid1.N, _)

/-- The arrays region 1 reads, at their literal types. -/
abbrev hState (c : Dev nD) : S64x2048.Idx → EReal := V c main_v11
abbrev wOut (c : Dev nD) : S2048x32000.Idx → EReal := V c main_arg4
abbrev bOut (c : Dev nD) : S1x32000.Idx → EReal := V c main_v10

/-- Entry `(r, v)` of the read-out: row `r` of the hidden state through the affine map. -/
def outAt (c : Dev nD) (r : Fin 64) (v : Fin 32000) : EReal :=
  affine (fun k => hState V c (ix2 r k)) (wOut V c) (fun u => bOut V c (ix2 (0 : Fin 1) u)) v

/-- The read-out as an array. -/
def outArr (c : Dev nD) : S64x32000.Idx → EReal :=
  fun i => outAt V c ⟨(i 0).val, idx2_lt0 i⟩ ⟨(i 1).val, idx2_lt1 i⟩

/-- Region 1's input blocks at a point, at their literal types. -/
abbrev hBlk (c : Dev nD) (t : Fin cfg1.N) : S64x2048.Idx → EReal := iblk1 V c 0 t
abbrev wBlk (c : Dev nD) (t : Fin cfg1.N) : S2048x1280.Idx → EReal := iblk1 V c 1 t
abbrev bBlk (c : Dev nD) (t : Fin cfg1.N) : S1x1280.Idx → EReal := iblk1 V c 2 t

/-- The hidden state's block is the whole array at every point. -/
theorem blk1_0 (c : Dev nD) (t : Fin cfg1.N) : hBlk V c t = hState V c := by
  obtain ⟨e0, e1, -⟩ := idx1 t
  funext y
  show V c main_v11 (((cfg1.win 0).blk t).view.emb y) = V c main_v11 y
  refine congrArg (V c main_v11) ?_
  funext a; apply Fin.ext
  match a with
  | ⟨0, _⟩ => show win1_0.index t (0 : Fin 2) * 64 + 1 * (y 0).val = (y 0).val; omega
  | ⟨1, _⟩ => show win1_0.index t (1 : Fin 2) * 2048 + 1 * (y 1).val = (y 1).val; omega

/-- Column `q` of the weight block at point `t` is column `1280 t + q` of the array. -/
theorem blk1_1 (c : Dev nD) (t : Fin cfg1.N) (k : Fin 2048) (q : Fin 1280) (h : t.val * 1280 + q.val < 32000) :
    wBlk V c t (ix2 k q) = wOut V c (ix2 k ⟨t.val * 1280 + q.val, h⟩) := by
  obtain ⟨-, -, e2, e3, -⟩ := idx1 t
  show V c main_arg4 (((cfg1.win 1).blk t).view.emb (ix2 k q)) = V c main_arg4 _
  refine congrArg (V c main_arg4) ?_
  funext a; apply Fin.ext
  match a with
  | ⟨0, _⟩ => show win1_1.index t (0 : Fin 2) * 2048 + 1 * k.val = k.val; omega
  | ⟨1, _⟩ => show win1_1.index t (1 : Fin 2) * 1280 + 1 * q.val = t.val * 1280 + q.val; omega

/-- Column `q` of the bias block at point `t` is column `1280 t + q` of the bias row. -/
theorem blk1_2 (c : Dev nD) (t : Fin cfg1.N) (q : Fin 1280) (h : t.val * 1280 + q.val < 32000) :
    bBlk V c t (ix2 (0 : Fin 1) q) = bOut V c (ix2 (0 : Fin 1) ⟨t.val * 1280 + q.val, h⟩) := by
  obtain ⟨-, -, -, -, e4, e5, -⟩ := idx1 t
  show V c main_v10 (((cfg1.win 2).blk t).view.emb (ix2 (0 : Fin 1) q)) = V c main_v10 _
  refine congrArg (V c main_v10) ?_
  funext a; apply Fin.ext
  match a with
  | ⟨0, _⟩ => show win1_2.index t (0 : Fin 2) * 1 + 1 * 0 = 0; omega
  | ⟨1, _⟩ => show win1_2.index t (1 : Fin 2) * 1280 + 1 * q.val = t.val * 1280 + q.val; omega

/-- An index of the result array is in point `t`'s block iff each coordinate is in the block's range. -/
theorem mem_blk1 (t : Fin cfg1.N) (i : S64x32000.Idx) :
    i ∈ ((cfg1.win 3).blk t).view.set ↔ ∀ a : Fin 2, win1_3.index t a * S64x1280.size a ≤ (i a).val ∧ (i a).val < win1_3.index t a * S64x1280.size a + S64x1280.size a := by
  show i ∈ ((View.whole main_v12).slice (win1_3.rect t)).set ↔ _
  rw [View.set_slice_whole, Rect.mem_set_unit]
  exact Iff.rfl

/-- The 25 blocks of 1280 columns cover the 32000 columns: column `v` is in block `v / 1280`. -/
theorem cover1 (i : S64x32000.Idx) : ∃ t : Fin cfg1.N, (cfg1.win 3).flush t = true ∧ i ∈ ((cfg1.win 3).blk t).view.set := by
  have hi0 : (i 0).val < 64 := (i 0).isLt
  have hi1 : (i 1).val < 32000 := (i 1).isLt
  have hN : cfg1.N = 25 := N_1
  obtain ⟨t, ht⟩ : ∃ t : Fin cfg1.N, t.val = (i 1).val / 1280 := ⟨⟨(i 1).val / 1280, by rw [hN]; omega⟩, rfl⟩
  obtain ⟨-, -, -, -, -, -, e6, e7, -⟩ := idx1 t
  refine ⟨t, flush1_3 t, ?_⟩
  rw [mem_blk1]
  intro a
  match a with
  | ⟨0, _⟩ => show win1_3.index t (0 : Fin 2) * 64 ≤ (i 0).val ∧ (i 0).val < win1_3.index t (0 : Fin 2) * 64 + 64; omega
  | ⟨1, _⟩ => show win1_3.index t (1 : Fin 2) * 1280 ≤ (i 1).val ∧ (i 1).val < win1_3.index t (1 : Fin 2) * 1280 + 1280; omega

section Body1

-- What the body of region 1 leaves in its output block, entry by entry: the affine map of the hidden rows.
variable (hbody1 : ∀ (x0 : Vec Ideal S64x2048 .bf16) (x1 : Vec Ideal S2048x1280 .f32) (x2 : Vec Ideal S1x1280 .f32)
    (p : Fin 64) (q : Fin 1280),
    out1_3 (F := Ideal) x0 x1 x2 (ix2 p q) = affine (fun k => x0 (ix2 p k)) x1 (fun u => x2 (ix2 (0 : Fin 1) u)) q)

include hbody1 in
/-- What point `t` writes back is block `t` of the read-out array. -/
theorem flushed1_eq (c : Dev nD) (t : Fin cfg1.N) :
    (dat1 V c).flushed 3 t = ((cfg1.win 3).blk t).view.read (Elt Ideal) (outArr V c) := by
  show (cfg1.win 3).cut (grid1.coords t) ((dat1 V c).after 3 t) = _
  rw [after1_3]
  obtain ⟨-, -, -, -, -, -, e6, e7, ht⟩ := idx1 t
  funext y
  have hp : (y 0).val < 64 := (y 0).isLt
  have hq : (y 1).val < 1280 := (y 1).isLt
  obtain ⟨p, q, rfl⟩ : ∃ (p : Fin 64) (q : Fin 1280), y = ix2 p q :=
    ⟨⟨(y 0).val, hp⟩, ⟨(y 1).val, hq⟩, by funext a; match a with | ⟨0, _⟩ => rfl | ⟨1, _⟩ => rfl⟩
  have hv : t.val * 1280 + q.val < 32000 := by have := q.isLt; omega
  show out1_3 (iblk1 V c 0 t) (iblk1 V c 1 t) (iblk1 V c 2 t) (ix2 p q)
    = outArr V c (((cfg1.win 3).blk t).view.emb (ix2 p q))
  refine (hbody1 (iblk1 V c 0 t) (iblk1 V c 1 t) (iblk1 V c 2 t) p q).trans ?_
  have er : (⟨((((cfg1.win 3).blk t).view.emb (ix2 p q)) 0).val, idx2_lt0 _⟩ : Fin 64) = p :=
    Fin.ext (by show win1_3.index t (0 : Fin 2) * 64 + 1 * p.val = p.val; omega)
  have ev : (⟨((((cfg1.win 3).blk t).view.emb (ix2 p q)) 1).val, idx2_lt1 _⟩ : Fin 32000) = ⟨t.val * 1280 + q.val, hv⟩ :=
    Fin.ext (by show win1_3.index t (1 : Fin 2) * 1280 + 1 * q.val = t.val * 1280 + q.val; omega)
  show _ = outAt V c ⟨_, _⟩ ⟨_, _⟩
  rw [er, ev]
  show (∑ k : Fin 2048, hBlk V c t (ix2 p k) * wBlk V c t (ix2 k q)) + bBlk V c t (ix2 (0 : Fin 1) q)
    = (∑ k : Fin 2048, hState V c (ix2 p k) * wOut V c (ix2 k ⟨t.val * 1280 + q.val, hv⟩))
      + bOut V c (ix2 (0 : Fin 1) ⟨t.val * 1280 + q.val, hv⟩)
  rw [blk1_0 V c t, blk1_2 V c t q hv]
  exact congrArg (· + _) (Finset.sum_congr rfl fun k _ => by rw [blk1_1 V c t k q hv])

include hbody1 in
/-- The result array after region 1. -/
theorem final1 (c : Dev nD) : (dat1 V c).arrAt 3 cfg1.N = outArr V c :=
  (dat1 V c).arrAt_eq_of_cover 3 (outArr V c) (fun t _ => flushed1_eq V hbody1 c t) cover1

end Body1

end Cert.KernelIdeal.Arrays

end
-- ==== Proof.KBody.lean ====
/-
  The two kernel bodies read at an index, at the ideal values.

  The first body holds one block of 32 embedding rows and pushes it through five dense layers, each a product with a
  weight matrix accumulated into zero, plus the one bias row broadcast over the 32 rows, then `tanh`; the changes of
  format between the layers are the identity on the extended reals. The second body is the affine read-out of a block
  of 64 hidden rows against one tile of 1280 columns of the output weights. Each body stores its result through the
  whole staging buffer and loads its operands through whole buffers, so what it leaves IS its payload; the payload at
  row `p` and column `q` is then `Cert.LastStep.hidden` (resp. `affine`) of row `p` of the input block, at `q`.
-/
import proofs.«411068_j87351044866483_3_alg».proof.Proof.Gen.KernelIdeal.Frame
import proofs.«411068_j87351044866483_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.TcCoe Idealize.ShloMosaic.ValueIdx

/-! ## Whole-buffer accesses -/

/-- The offsets of every access of the two bodies are zero on both axes. -/
theorem offsets_zero : (![0, 0] : Fin 2 → Nat) = fun _ => 0 :=
  funext fun a => by match a with | ⟨0, _⟩ => rfl | ⟨1, _⟩ => rfl

/-! ## The product 32×1024 by 1024×2048 read at an index -/

/-- The left operand's row coordinate is the result's row. -/
theorem lhsIn_0 (i : S32x2048.Idx) (q : dot_S32x1024_S1024x2048_S32x2048_1_0_0_1_n_n.contr.Idx) :
    (dot_S32x1024_S1024x2048_S32x2048_1_0_0_1_n_n.lhsIdx i q 0).val = (i 0).val := by
  unfold DotDims.lhsIdx
  rw [dif_neg (show ¬(0 : Fin S32x1024.rank) ∈ dot_S32x1024_S1024x2048_S32x2048_1_0_0_1_n_n.lhsBatch by decide), dif_pos (show (0 : Fin S32x1024.rank) ∈ dot_S32x1024_S1024x2048_S32x2048_1_0_0_1_n_n.lhsNonContracting by decide)]
  rfl
/-- The left operand's column coordinate is the contraction position. -/
theorem lhsIn_1 (i : S32x2048.Idx) (q : dot_S32x1024_S1024x2048_S32x2048_1_0_0_1_n_n.contr.Idx) :
    (dot_S32x1024_S1024x2048_S32x2048_1_0_0_1_n_n.lhsIdx i q 1).val = (q ⟨0, by decide⟩).val :=
  dot_S32x1024_S1024x2048_S32x2048_1_0_0_1_n_n.lhsIdx_val_of_single rfl i q
/-- The right operand's row coordinate is the contraction position. -/
theorem rhsIn_0 (i : S32x2048.Idx) (q : dot_S32x1024_S1024x2048_S32x2048_1_0_0_1_n_n.contr.Idx) :
    (dot_S32x1024_S1024x2048_S32x2048_1_0_0_1_n_n.rhsIdx i q 0).val = (q ⟨0, by decide⟩).val :=
  dot_S32x1024_S1024x2048_S32x2048_1_0_0_1_n_n.rhsIdx_val_of_single rfl i q
/-- The right operand's column coordinate is the result's column. -/
theorem rhsIn_1 (i : S32x2048.Idx) (q : dot_S32x1024_S1024x2048_S32x2048_1_0_0_1_n_n.contr.Idx) :
    (dot_S32x1024_S1024x2048_S32x2048_1_0_0_1_n_n.rhsIdx i q 1).val = (i 1).val := by
  unfold DotDims.rhsIdx
  rw [dif_neg (show ¬(1 : Fin S1024x2048.rank) ∈ dot_S32x1024_S1024x2048_S32x2048_1_0_0_1_n_n.rhsBatch by decide), dif_pos (show (1 : Fin S1024x2048.rank) ∈ dot_S32x1024_S1024x2048_S32x2048_1_0_0_1_n_n.rhsNonContracting by decide)]
  rfl

/-- The product accumulated into the zero splat, at row `p` and column `q`, is `∑ k, lhs (p, k) * rhs (k, q)`: the sum over
    the contraction index moved to the sum over the one contracted coordinate. -/
theorem matmulIn_apply (lhs : FVec Ideal S32x1024 .bf16) (rhs : FVec Ideal S1024x2048 .bf16) (p : Fin 32) (q : Fin 2048) :
    matmul (F := Ideal) dot_S32x1024_S1024x2048_S32x2048_1_0_0_1_n_n none lhs rhs (constant (F := Ideal) S32x2048 .f32 0x00000000#32) (ix2 p q)
      = ∑ k : Fin 1024, lhs (ix2 p k) * rhs (ix2 k q) := by
  simp only [matmul]
  rw [Ideal.matmul_constant_zero_apply, ← Equiv.sum_comp (contrEquiv1 dot_S32x1024_S1024x2048_S32x2048_1_0_0_1_n_n 1024 rfl rfl).symm]
  refine Finset.sum_congr rfl fun k _ => ?_
  have hk := contrEquiv1_symm_val dot_S32x1024_S1024x2048_S32x2048_1_0_0_1_n_n 1024 rfl rfl k
  have el : dot_S32x1024_S1024x2048_S32x2048_1_0_0_1_n_n.lhsIdx (ix2 p q) ((contrEquiv1 dot_S32x1024_S1024x2048_S32x2048_1_0_0_1_n_n 1024 rfl rfl).symm k) = ix2 p k := funext fun a => Fin.ext (by
    match a with
    | ⟨0, _⟩ => exact lhsIn_0 _ _
    | ⟨1, _⟩ => exact (lhsIn_1 _ _).trans hk)
  have er : dot_S32x1024_S1024x2048_S32x2048_1_0_0_1_n_n.rhsIdx (ix2 p q) ((contrEquiv1 dot_S32x1024_S1024x2048_S32x2048_1_0_0_1_n_n 1024 rfl rfl).symm k) = ix2 k q := funext fun a => Fin.ext (by
    match a with
    | ⟨0, _⟩ => exact (rhsIn_0 _ _).trans hk
    | ⟨1, _⟩ => exact rhsIn_1 _ _)
  rw [el, er]

/-! ## The product 32×2048 by 2048×2048 read at an index -/

/-- The left operand's row coordinate is the result's row. -/
theorem lhsRec_0 (i : S32x2048.Idx) (q : dot_S32x2048_S2048x2048_S32x2048_1_0_0_1_n_n.contr.Idx) :
    (dot_S32x2048_S2048x2048_S32x2048_1_0_0_1_n_n.lhsIdx i q 0).val = (i 0).val := by
  unfold DotDims.lhsIdx
  rw [dif_neg (show ¬(0 : Fin S32x2048.rank) ∈ dot_S32x2048_S2048x2048_S32x2048_1_0_0_1_n_n.lhsBatch by decide), dif_pos (show (0 : Fin S32x2048.rank) ∈ dot_S32x2048_S2048x2048_S32x2048_1_0_0_1_n_n.lhsNonContracting by decide)]
  rfl
/-- The left operand's column coordinate is the contraction position. -/
theorem lhsRec_1 (i : S32x2048.Idx) (q : dot_S32x2048_S2048x2048_S32x2048_1_0_0_1_n_n.contr.Idx) :
    (dot_S32x2048_S2048x2048_S32x2048_1_0_0_1_n_n.lhsIdx i q 1).val = (q ⟨0, by decide⟩).val :=
  dot_S32x2048_S2048x2048_S32x2048_1_0_0_1_n_n.lhsIdx_val_of_single rfl i q
/-- The right operand's row coordinate is the contraction position. -/
theorem rhsRec_0 (i : S32x2048.Idx) (q : dot_S32x2048_S2048x2048_S32x2048_1_0_0_1_n_n.contr.Idx) :
    (dot_S32x2048_S2048x2048_S32x2048_1_0_0_1_n_n.rhsIdx i q 0).val = (q ⟨0, by decide⟩).val :=
  dot_S32x2048_S2048x2048_S32x2048_1_0_0_1_n_n.rhsIdx_val_of_single rfl i q
/-- The right operand's column coordinate is the result's column. -/
theorem rhsRec_1 (i : S32x2048.Idx) (q : dot_S32x2048_S2048x2048_S32x2048_1_0_0_1_n_n.contr.Idx) :
    (dot_S32x2048_S2048x2048_S32x2048_1_0_0_1_n_n.rhsIdx i q 1).val = (i 1).val := by
  unfold DotDims.rhsIdx
  rw [dif_neg (show ¬(1 : Fin S2048x2048.rank) ∈ dot_S32x2048_S2048x2048_S32x2048_1_0_0_1_n_n.rhsBatch by decide), dif_pos (show (1 : Fin S2048x2048.rank) ∈ dot_S32x2048_S2048x2048_S32x2048_1_0_0_1_n_n.rhsNonContracting by decide)]
  rfl

/-- The product accumulated into the zero splat, at row `p` and column `q`, is `∑ k, lhs (p, k) * rhs (k, q)`: the sum over
    the contraction index moved to the sum over the one contracted coordinate. -/
theorem matmulRec_apply (lhs : FVec Ideal S32x2048 .bf16) (rhs : FVec Ideal S2048x2048 .bf16) (p : Fin 32) (q : Fin 2048) :
    matmul (F := Ideal) dot_S32x2048_S2048x2048_S32x2048_1_0_0_1_n_n none lhs rhs (constant (F := Ideal) S32x2048 .f32 0x00000000#32) (ix2 p q)
      = ∑ k : Fin 2048, lhs (ix2 p k) * rhs (ix2 k q) := by
  simp only [matmul]
  rw [Ideal.matmul_constant_zero_apply, ← Equiv.sum_comp (contrEquiv1 dot_S32x2048_S2048x2048_S32x2048_1_0_0_1_n_n 2048 rfl rfl).symm]
  refine Finset.sum_congr rfl fun k _ => ?_
  have hk := contrEquiv1_symm_val dot_S32x2048_S2048x2048_S32x2048_1_0_0_1_n_n 2048 rfl rfl k
  have el : dot_S32x2048_S2048x2048_S32x2048_1_0_0_1_n_n.lhsIdx (ix2 p q) ((contrEquiv1 dot_S32x2048_S2048x2048_S32x2048_1_0_0_1_n_n 2048 rfl rfl).symm k) = ix2 p k := funext fun a => Fin.ext (by
    match a with
    | ⟨0, _⟩ => exact lhsRec_0 _ _
    | ⟨1, _⟩ => exact (lhsRec_1 _ _).trans hk)
  have er : dot_S32x2048_S2048x2048_S32x2048_1_0_0_1_n_n.rhsIdx (ix2 p q) ((contrEquiv1 dot_S32x2048_S2048x2048_S32x2048_1_0_0_1_n_n 2048 rfl rfl).symm k) = ix2 k q := funext fun a => Fin.ext (by
    match a with
    | ⟨0, _⟩ => exact (rhsRec_0 _ _).trans hk
    | ⟨1, _⟩ => exact rhsRec_1 _ _)
  rw [el, er]

/-! ## The product 64×2048 by 2048×1280 read at an index -/

/-- The left operand's row coordinate is the result's row. -/
theorem lhsOut_0 (i : S64x1280.Idx) (q : dot_S64x2048_S2048x1280_S64x1280_1_0_0_1_n_n.contr.Idx) :
    (dot_S64x2048_S2048x1280_S64x1280_1_0_0_1_n_n.lhsIdx i q 0).val = (i 0).val := by
  unfold DotDims.lhsIdx
  rw [dif_neg (show ¬(0 : Fin S64x2048.rank) ∈ dot_S64x2048_S2048x1280_S64x1280_1_0_0_1_n_n.lhsBatch by decide), dif_pos (show (0 : Fin S64x2048.rank) ∈ dot_S64x2048_S2048x1280_S64x1280_1_0_0_1_n_n.lhsNonContracting by decide)]
  rfl
/-- The left operand's column coordinate is the contraction position. -/
theorem lhsOut_1 (i : S64x1280.Idx) (q : dot_S64x2048_S2048x1280_S64x1280_1_0_0_1_n_n.contr.Idx) :
    (dot_S64x2048_S2048x1280_S64x1280_1_0_0_1_n_n.lhsIdx i q 1).val = (q ⟨0, by decide⟩).val :=
  dot_S64x2048_S2048x1280_S64x1280_1_0_0_1_n_n.lhsIdx_val_of_single rfl i q
/-- The right operand's row coordinate is the contraction position. -/
theorem rhsOut_0 (i : S64x1280.Idx) (q : dot_S64x2048_S2048x1280_S64x1280_1_0_0_1_n_n.contr.Idx) :
    (dot_S64x2048_S2048x1280_S64x1280_1_0_0_1_n_n.rhsIdx i q 0).val = (q ⟨0, by decide⟩).val :=
  dot_S64x2048_S2048x1280_S64x1280_1_0_0_1_n_n.rhsIdx_val_of_single rfl i q
/-- The right operand's column coordinate is the result's column. -/
theorem rhsOut_1 (i : S64x1280.Idx) (q : dot_S64x2048_S2048x1280_S64x1280_1_0_0_1_n_n.contr.Idx) :
    (dot_S64x2048_S2048x1280_S64x1280_1_0_0_1_n_n.rhsIdx i q 1).val = (i 1).val := by
  unfold DotDims.rhsIdx
  rw [dif_neg (show ¬(1 : Fin S2048x1280.rank) ∈ dot_S64x2048_S2048x1280_S64x1280_1_0_0_1_n_n.rhsBatch by decide), dif_pos (show (1 : Fin S2048x1280.rank) ∈ dot_S64x2048_S2048x1280_S64x1280_1_0_0_1_n_n.rhsNonContracting by decide)]
  rfl

/-- The product accumulated into the zero splat, at row `p` and column `q`, is `∑ k, lhs (p, k) * rhs (k, q)`: the sum over
    the contraction index moved to the sum over the one contracted coordinate. -/
theorem matmulOut_apply (lhs : FVec Ideal S64x2048 .bf16) (rhs : FVec Ideal S2048x1280 .bf16) (p : Fin 64) (q : Fin 1280) :
    matmul (F := Ideal) dot_S64x2048_S2048x1280_S64x1280_1_0_0_1_n_n none lhs rhs (constant (F := Ideal) S64x1280 .f32 0x00000000#32) (ix2 p q)
      = ∑ k : Fin 2048, lhs (ix2 p k) * rhs (ix2 k q) := by
  simp only [matmul]
  rw [Ideal.matmul_constant_zero_apply, ← Equiv.sum_comp (contrEquiv1 dot_S64x2048_S2048x1280_S64x1280_1_0_0_1_n_n 2048 rfl rfl).symm]
  refine Finset.sum_congr rfl fun k _ => ?_
  have hk := contrEquiv1_symm_val dot_S64x2048_S2048x1280_S64x1280_1_0_0_1_n_n 2048 rfl rfl k
  have el : dot_S64x2048_S2048x1280_S64x1280_1_0_0_1_n_n.lhsIdx (ix2 p q) ((contrEquiv1 dot_S64x2048_S2048x1280_S64x1280_1_0_0_1_n_n 2048 rfl rfl).symm k) = ix2 p k := funext fun a => Fin.ext (by
    match a with
    | ⟨0, _⟩ => exact lhsOut_0 _ _
    | ⟨1, _⟩ => exact (lhsOut_1 _ _).trans hk)
  have er : dot_S64x2048_S2048x1280_S64x1280_1_0_0_1_n_n.rhsIdx (ix2 p q) ((contrEquiv1 dot_S64x2048_S2048x1280_S64x1280_1_0_0_1_n_n 2048 rfl rfl).symm k) = ix2 k q := funext fun a => Fin.ext (by
    match a with
    | ⟨0, _⟩ => exact (rhsOut_0 _ _).trans hk
    | ⟨1, _⟩ => exact rhsOut_1 _ _)
  rw [el, er]

/-! ## One dense layer of a block -/

/-- The input layer of a block of 32 rows: the product with the input weights into zero, plus the bias row on every
    row, then `tanh`. -/
def inLayer (x : FVec Ideal S32x1024 .f32) (W : FVec Ideal S1024x2048 .f32) (b : FVec Ideal S1x2048 .f32) : FVec Ideal S32x2048 .f32 :=
  tanh (addf (matmul (F := Ideal) dot_S32x1024_S1024x2048_S32x2048_1_0_0_1_n_n none (truncf .bf16 x bitsLt_bf16_f32) (truncf .bf16 W bitsLt_bf16_f32)
    (constant (F := Ideal) S32x2048 .f32 0x00000000#32)) (broadcastTo S32x2048 b broadcasts_S1x2048_S32x2048))

/-- A recurrent layer of a block of 32 rows: the same with the recurrent weights. -/
def recLayer (h : FVec Ideal S32x2048 .f32) (W : FVec Ideal S2048x2048 .f32) (b : FVec Ideal S1x2048 .f32) : FVec Ideal S32x2048 .f32 :=
  tanh (addf (matmul (F := Ideal) dot_S32x2048_S2048x2048_S32x2048_1_0_0_1_n_n none (truncf .bf16 h bitsLt_bf16_f32) (truncf .bf16 W bitsLt_bf16_f32)
    (constant (F := Ideal) S32x2048 .f32 0x00000000#32)) (broadcastTo S32x2048 b broadcasts_S1x2048_S32x2048))

/-- The input layer at row `p`, column `q` is the dense layer of row `p`. -/
theorem inLayer_apply (x : FVec Ideal S32x1024 .f32) (W : FVec Ideal S1024x2048 .f32) (b : FVec Ideal S1x2048 .f32)
    (p : Fin 32) (q : Fin 2048) :
    inLayer x W b (ix2 p q) = Cert.LastStep.layer (fun k => x (ix2 p k)) W (fun j => b (ix2 (0 : Fin 1) j)) q := by
  unfold inLayer
  show Ideal.tanh (_ + _) = _
  rw [matmulIn_apply, broadcastTo_1b_ab_apply]
  rfl

/-- A recurrent layer at row `p`, column `q` is the dense layer of row `p`. -/
theorem recLayer_apply (h : FVec Ideal S32x2048 .f32) (W : FVec Ideal S2048x2048 .f32) (b : FVec Ideal S1x2048 .f32)
    (p : Fin 32) (q : Fin 2048) :
    recLayer h W b (ix2 p q) = Cert.LastStep.layer (fun k => h (ix2 p k)) W (fun j => b (ix2 (0 : Fin 1) j)) q := by
  unfold recLayer
  show Ideal.tanh (_ + _) = _
  rw [matmulRec_apply, broadcastTo_1b_ab_apply]
  rfl

/-! ## The first body -/

/-- What the first body leaves is its payload: one store through the whole buffer, of loads through whole buffers. -/
theorem out0_4_eq (x0 : Vec Ideal S32x1024 .f32) (x1 : Vec Ideal S1024x2048 .f32) (x2 : Vec Ideal S2048x2048 .f32) (x3 : Vec Ideal S1x2048 .f32) :
    out0_4 (F := Ideal) x0 x1 x2 x3 = k0_pay1 (k0_pay2 x3) (k0_pay3 x0 x1 x3 x2 x2 x2 x2) := by
  unfold out0_4
  rw [View.canon_unit_zero offsets_zero]
  simp only [View.ld_unit_zero (S := S32x1024) offsets_zero, View.ld_unit_zero (S := S1024x2048) offsets_zero,
    View.ld_unit_zero (S := S2048x2048) offsets_zero, View.ld_unit_zero (S := S1x2048) offsets_zero]

/-- The bias row's cast to its own shape is the bias row. -/
theorem pay2_eq (x3 : Vec Ideal S1x2048 .f32) : k0_pay2 (F := Ideal) x3 = x3 := by
  unfold k0_pay2
  exact shapeCast_self _ _

/-- The payload is the input layer followed by four recurrent layers, in the narrower format (the same extended reals). -/
theorem pay0_eq (x0 : Vec Ideal S32x1024 .f32) (x1 : Vec Ideal S1024x2048 .f32) (x2 : Vec Ideal S2048x2048 .f32) (x3 : Vec Ideal S1x2048 .f32) :
    k0_pay1 (F := Ideal) (k0_pay2 x3) (k0_pay3 x0 x1 x3 x2 x2 x2 x2)
      = truncf .bf16 (recLayer (recLayer (recLayer (recLayer (inLayer x0 x1 x3) x2 x3) x2 x3) x2 x3) x2 x3) bitsLt_bf16_f32 := by
  unfold k0_pay1 k0_pay3
  simp only [pay2_eq, shapeCast_self]
  rfl

/-- THE FIRST BODY AT AN INDEX: row `p`, column `q` of the block it leaves is the five layers of row `p` of its input block. -/
theorem out0_4_apply (x0 : Vec Ideal S32x1024 .f32) (x1 : Vec Ideal S1024x2048 .f32) (x2 : Vec Ideal S2048x2048 .f32) (x3 : Vec Ideal S1x2048 .f32)
    (p : Fin 32) (q : Fin 2048) :
    out0_4 (F := Ideal) x0 x1 x2 x3 (ix2 p q)
      = Cert.LastStep.hidden (fun e => x0 (ix2 p e)) x1 x2 (fun j => x3 (ix2 (0 : Fin 1) j)) q := by
  rw [out0_4_eq, pay0_eq, truncf_apply]
  simp only [recLayer_apply, inLayer_apply]
  rfl

/-! ## The second body -/

/-- What the second body leaves is its payload. -/
theorem out1_3_eq (x0 : Vec Ideal S64x2048 .bf16) (x1 : Vec Ideal S2048x1280 .f32) (x2 : Vec Ideal S1x1280 .f32) :
    out1_3 (F := Ideal) x0 x1 x2 = k1_pay1 x0 x1 x2 := by
  unfold out1_3
  rw [View.canon_unit_zero offsets_zero]
  simp only [View.ld_unit_zero (S := S64x2048) offsets_zero, View.ld_unit_zero (S := S2048x1280) offsets_zero,
    View.ld_unit_zero (S := S1x1280) offsets_zero]

/-- THE SECOND BODY AT AN INDEX: row `p`, column `q` of the block it leaves is the affine read-out of row `p` of its hidden block. -/
theorem out1_3_apply (x0 : Vec Ideal S64x2048 .bf16) (x1 : Vec Ideal S2048x1280 .f32) (x2 : Vec Ideal S1x1280 .f32)
    (p : Fin 64) (q : Fin 1280) :
    out1_3 (F := Ideal) x0 x1 x2 (ix2 p q)
      = Cert.LastStep.affine (fun k => x0 (ix2 p k)) x1 (fun u => x2 (ix2 (0 : Fin 1) u)) q := by
  rw [out1_3_eq]
  unfold k1_pay1
  simp only [shapeCast_self]
  show _ + _ = _
  rw [matmulOut_apply, broadcastTo_1b_ab_apply]
  rfl

end Cert.KernelIdeal.Body

end
-- ==== Proof.KHost.lean ====
/-
  The host operations that run before the first kernel call, read at an index, at the ideal instance.

  Before the layers run, the program takes the LAST token of each of the 64 batch rows (column 511 of the 64×512 token
  array), wraps a negative word by adding the vocabulary size 32000, and gathers that row of the 32000×1024 embedding
  table; it also views the two bias vectors as one-row matrices.  Read at an index: the gathered array at `(r, e)` is
  entry `e` of the embedding row the specification calls `lastEmb`, the one-row biases at `(0, j)` are the biases at
  `j`, and the weight arrays, which no host operation writes, are as launched.
-/
import proofs.«411068_j87351044866483_3_alg».proof.Proof.Gen.KernelIdeal.Frame
import proofs.«411068_j87351044866483_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostValue

open Cert.KernelIdeal Cert.KernelIdeal.Gen Idealize.ShloMosaic Idealize.ShloMosaic.TcCoe Idealize.ShloMosaic.ValueIdx Idealize.SL.Sem

/-! ## The embedding gather read at an index -/

section Gather
variable {α : Type}

/-- On the table's row axis the gather reads the start index of batch row `r`, signed and clamped into the table. -/
theorem gather_row_axis (idx : IVec S64x1 32) (r : Fin 64) (e : Fin 1024) :
    (gather_S32000x1024_S64x1_S64x1024_1_0_n_n_0_1_11024.operandIdx (ix2 r e) idx 0).val
      = min (idx (ix2 r (0 : Fin 1))).toInt.toNat 31999 := by
  show gather_S32000x1024_S64x1_S64x1024_1_0_n_n_0_1_11024.start (ix2 r e) idx 0
      + gather_S32000x1024_S64x1_S64x1024_1_0_n_n_0_1_11024.batchCoord (ix2 r e) 0
      + gather_S32000x1024_S64x1_S64x1024_1_0_n_n_0_1_11024.offCoord (ix2 r e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S32000x1024_S64x1_S64x1024_1_0_n_n_0_1_11024.startIndexMap from List.mem_singleton.mpr rfl)]
  have hsi : gather_S32000x1024_S64x1_S64x1024_1_0_n_n_0_1_11024.siIdx (ix2 r e)
      ⟨List.idxOf (0 : Fin 2) gather_S32000x1024_S64x1_S64x1024_1_0_n_n_0_1_11024.startIndexMap,
        List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the embedding axis the gather reads the result's own coordinate: the whole row is taken. -/
theorem gather_emb_axis (idx : IVec S64x1 32) (r : Fin 64) (e : Fin 1024) :
    (gather_S32000x1024_S64x1_S64x1024_1_0_n_n_0_1_11024.operandIdx (ix2 r e) idx 1).val = e.val := by
  show gather_S32000x1024_S64x1_S64x1024_1_0_n_n_0_1_11024.start (ix2 r e) idx 1
      + gather_S32000x1024_S64x1_S64x1024_1_0_n_n_0_1_11024.batchCoord (ix2 r e) 1
      + gather_S32000x1024_S64x1_S64x1024_1_0_n_n_0_1_11024.offCoord (ix2 r e) 1 = _
  rw [GatherDims.batchCoord_eq_zero _ _ _ List.not_mem_nil]
  unfold GatherDims.start GatherDims.offCoord
  rw [dif_neg (show ¬(1 : Fin 2) ∈ gather_S32000x1024_S64x1_S64x1024_1_0_n_n_0_1_11024.startIndexMap by decide),
    dif_pos (show (1 : Fin 2) ∈ gather_S32000x1024_S64x1_S64x1024_1_0_n_n_0_1_11024.sKept by decide)]
  simp only [Nat.zero_add, Nat.add_zero]
  rfl

/-- The gather at `(r, e)`: entry `e` of the table's row that batch row `r`'s start index names, read signed and
    clamped into `[0, 31999]`. -/
theorem gather_row_apply (x : S32000x1024.Idx → α) (idx : IVec S64x1 32) (r : Fin 64) (e : Fin 1024) :
    Host.gather gather_S32000x1024_S64x1_S64x1024_1_0_n_n_0_1_11024 x idx (ix2 r e)
      = x (ix2 (⟨min (idx (ix2 r (0 : Fin 1))).toInt.toNat 31999, by omega⟩ : Fin 32000) e) := by
  unfold Host.gather
  refine congrArg x (funext fun a => Fin.ext ?_)
  match a with
  | ⟨0, _⟩ => exact gather_row_axis idx r e
  | ⟨1, _⟩ => exact gather_emb_axis idx r e

/-- The same with the start index named: if batch row `r`'s start index is the word `w`, the gather reads row
    `min w 31999` of the table (`w` signed, a negative one clamped to 0). -/
theorem gather_row_apply_of_eq (x : S32000x1024.Idx → α) (idx : IVec S64x1 32) (r : Fin 64) (e : Fin 1024) (w : BitVec 32)
    (hw : idx (ix2 r (0 : Fin 1)) = w) :
    Host.gather gather_S32000x1024_S64x1_S64x1024_1_0_n_n_0_1_11024 x idx (ix2 r e)
      = x (ix2 (⟨min w.toInt.toNat 31999, by omega⟩ : Fin 32000) e) := by
  subst hw
  exact gather_row_apply x idx r e

end Gather

/-! ## The start indices: each batch row's last token, wrapped -/

section Start

/-- The last token of each batch row: column 511 of the token array, as a vector of 64 words. -/
def lastTok (X : IVec S64x512 32) : IVec S64 32 :=
  shapeCast S64 (extractStridedSlice S64x1 ![0, 511] X slices_S64x512_S64x1_0_511) shapeCasts_S64x1_S64

/-- Entry `r` of it is the token at `(r, 511)`: the 64×1 column and the 64-vector share row-major positions
    (`r · 1 + 0 = r`), and the slice shifts the column coordinate by 511. -/
theorem lastTok_apply (X : IVec S64x512 32) (r : Fin 64) : lastTok X (ix1 r) = X (ix2 r (511 : Fin 512)) := by
  unfold lastTok
  refine (shapeCast_apply _ shapeCasts_S64x1_S64 (ix1 r) (ix2 r (0 : Fin 1)) ?_).trans ?_
  · rw [Shape.rowMajor_val_two, Shape.rowMajor_val_one]
    show r.val * 1 + 0 = r.val
    omega
  · exact extractStridedSlice_apply ![0, 511] X slices_S64x512_S64x1_0_511 (ix2 r (0 : Fin 1)) (ix2 r (511 : Fin 512))
      (fun a => match a with
        | ⟨0, _⟩ => by show r.val = 0 + r.val; omega
        | ⟨1, _⟩ => rfl)

/-- A word repeated along the 64 batch rows. -/
def splat (w : BitVec 32) : IVec S64 32 := broadcastInDim S64 ![] bcast_S_S64 (constantI S_ 32 w)

/-- Every entry of it is the word. -/
theorem splat_apply (w : BitVec 32) (r : Fin 64) : splat w (ix1 r) = w := by
  unfold splat
  exact (broadcastInDim_apply _ bcast_S_S64 (constantI S_ 32 w) (ix1 r) ix0 (fun a => a.elim0)).trans rfl

/-- The start indices the gather is given: the last tokens, a negative one moved up by 32000, as a 64×1 column. -/
def startCol (X : IVec S64x512 32) : IVec S64x1 32 :=
  broadcastInDim S64x1 ![0] bcast_S64_S64x1_0
    (select (cmpi .slt (lastTok X) (splat 0#32)) (addi (lastTok X) (splat 32000#32)) (lastTok X))

/-- Row `r` of the column is the wrapped last token of batch row `r`: the comparison, the sum and the choice act entry
    by entry. -/
theorem startCol_apply (X : IVec S64x512 32) (r : Fin 64) :
    startCol X (ix2 r (0 : Fin 1)) = Cert.LastStep.wrap (X (ix2 r (511 : Fin 512))) := by
  unfold startCol
  refine (broadcastInDim_apply _ bcast_S64_S64x1_0 _ (ix2 r (0 : Fin 1)) (ix1 r) (fun a => match a with
    | ⟨0, _⟩ => by show r.val = if (64 : Nat) = 1 then 0 else r.val; rw [if_neg (by decide)])).trans ?_
  show Scalar.select (IntOp.cmpi .slt (lastTok X (ix1 r)) (splat 0#32 (ix1 r)))
      (IntOp.addi (lastTok X (ix1 r)) (splat 32000#32 (ix1 r))) (lastTok X (ix1 r)) = _
  rw [lastTok_apply, splat_apply, splat_apply]
  rfl

end Start

/-! ## The buffers when the first kernel call is entered -/

variable (m : (ℓ : Loc nD τ sig) → Buf (Elt Ideal) ℓ) (ρ : Dev nD → PrngReg)

/-- The gathered array is the gather of the launched table at the start indices made from the launched tokens. -/
theorem V1_v8_eq (c : Dev nD) :
    (V1 m ρ c main_v8 : S64x1024.Idx → EReal)
      = Host.gather gather_S32000x1024_S64x1_S64x1024_1_0_n_n_0_1_11024 (m ((c : Thread nD τ).loc main_arg1))
          (startCol (m ((c : Thread nD τ).loc main_arg0))) := by
  dsimp only [V1, W1, hostOps0]
  after_results
  rfl

/-- At `(r, e)` it is entry `e` of the embedding of batch row `r`'s last token. -/
theorem V1_v8 (c : Dev nD) (r : Fin 64) (e : Fin 1024) :
    (V1 m ρ c main_v8 : S64x1024.Idx → EReal) (ix2 r e)
      = Cert.LastStep.lastEmb (m ((c : Thread nD τ).loc main_arg0)) (m ((c : Thread nD τ).loc main_arg1)) r e := by
  rw [V1_v8_eq]
  exact gather_row_apply_of_eq _ _ r e _ (startCol_apply _ r)

/-- The hidden bias as a one-row matrix: at `(0, j)` the bias at `j`. -/
theorem V1_v9 (c : Dev nD) (j : Fin 2048) :
    (V1 m ρ c main_v9 : S1x2048.Idx → EReal) (ix2 (0 : Fin 1) j) = m ((c : Thread nD τ).loc main_arg5) (ix1 j) := by
  have e : (V1 m ρ c main_v9 : S1x2048.Idx → EReal)
      = shapeCast S1x2048 (m ((c : Thread nD τ).loc main_arg5)) shapeCasts_S2048_S1x2048 := by
    dsimp only [V1, W1, hostOps0]
    after_results
    rfl
  rw [e]
  exact shapeCast_a_1a_apply _ shapeCasts_S2048_S1x2048 (0 : Fin 1) j

/-- The read-out bias as a one-row matrix: at `(0, u)` the bias at `u`. -/
theorem V1_v10 (c : Dev nD) (u : Fin 32000) :
    (V1 m ρ c main_v10 : S1x32000.Idx → EReal) (ix2 (0 : Fin 1) u) = m ((c : Thread nD τ).loc main_arg6) (ix1 u) := by
  have e : (V1 m ρ c main_v10 : S1x32000.Idx → EReal)
      = shapeCast S1x32000 (m ((c : Thread nD τ).loc main_arg6)) shapeCasts_S32000_S1x32000 := by
    dsimp only [V1, W1, hostOps0]
    after_results
    rfl
  rw [e]
  exact shapeCast_a_1a_apply _ shapeCasts_S32000_S1x32000 (0 : Fin 1) u

/-- A buffer that is none of the thirteen results of the host operations holds its launch contents: each operation
    rewrites its own result buffer only. -/
theorem V1_of_ne (c : Dev nD) (b : Ref sig .tc)
    (h : ∀ y ∈ [main_v0, main_v1, main_c, main_v2, main_v3, main_c_0, main_v4, main_v5, main_v6, main_v7, main_v8, main_v9, main_v10], b ≠ y) :
    V1 m ρ c b = m ((c : Thread nD τ).loc b) :=
  calc V1 m ρ c b
    _ = W0 m ρ c (Proc.devRef .tc b) := StableHlo.after_of_forall_not_mem (b := Proc.devRef .tc b) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (h _ (by simp))))
    _ = m ((c : Thread nD τ).loc b) := rfl

/-- The three weight arrays are as launched. -/
theorem V1_arg2 (c : Dev nD) : V1 m ρ c main_arg2 = m ((c : Thread nD τ).loc main_arg2) := V1_of_ne m ρ c main_arg2 (by decide)
theorem V1_arg3 (c : Dev nD) : V1 m ρ c main_arg3 = m ((c : Thread nD τ).loc main_arg3) := V1_of_ne m ρ c main_arg3 (by decide)
theorem V1_arg4 (c : Dev nD) : V1 m ρ c main_arg4 = m ((c : Thread nD τ).loc main_arg4) := V1_of_ne m ρ c main_arg4 (by decide)

end Cert.KernelIdeal.HostValue

end
-- ==== Proof.KValue.lean ====
/-
  The idealized kernel's result, as the specification's function of the launch memory.

  The result array is what region 1 leaves: the affine read-out of the hidden-state array region 0 left, with the
  read-out weights as launched and the read-out bias the reshaped argument.  The hidden-state array is the five layers
  of the gathered embedding rows, with the weights as launched and the bias the reshaped argument; and row `r` of the
  gathered rows is the embedding of row `r`'s last token.  Chained, entry `(r, v)` of the result is
  `resultAt … r v` of the seven argument arrays.
-/
import proofs.«411068_j87351044866483_3_alg».proof.Proof.KRun
import proofs.«411068_j87351044866483_3_alg».proof.Proof.KArr
import proofs.«411068_j87351044866483_3_alg».proof.Proof.KBody
import proofs.«411068_j87351044866483_3_alg».proof.Proof.KHost
import proofs.«411068_j87351044866483_3_alg».proof.Proof.Spec

set_option maxRecDepth 16384

noncomputable section

namespace Cert.KernelIdeal.Result

open Cert.KernelIdeal Cert.KernelIdeal.Gen Cert.KernelIdeal.Arrays Cert.LastStep
open Idealize.ShloMosaic Idealize.ShloMosaic.TcCoe Idealize.ShloMosaic.ValueIdx Idealize.SL.Sem

variable (m : (ℓ : Loc nD τ sig) → Buf (Elt Ideal) ℓ) (ρ : Dev nD → PrngReg)

/-- Entry `(r, k)` of the hidden-state array region 1 is entered with: the five layers of the last token's embedding. -/
theorem hidden_entry (c : Dev nD) (r : Fin 64) (k : Fin 2048) :
    hState (V2 m ρ) c (ix2 r k)
      = hidden (lastEmb (m ((c : Thread nD τ).loc main_arg0)) (m ((c : Thread nD τ).loc main_arg1)) r)
          (m ((c : Thread nD τ).loc main_arg2)) (m ((c : Thread nD τ).loc main_arg3))
          (fun j => m ((c : Thread nD τ).loc main_arg5) (ix1 j)) k := by
  have e : hState (V2 m ρ) c = hiddenArr (V1 m ρ) c :=
    (W2_arr m ρ c 4).trans (final0 (V1 m ρ) Cert.KernelIdeal.Body.out0_4_apply c)
  rw [e]
  show hiddenAt (V1 m ρ) c r k = _
  unfold hiddenAt
  have h8 : (fun e => embRows (V1 m ρ) c (ix2 r e)) = lastEmb (m ((c : Thread nD τ).loc main_arg0)) (m ((c : Thread nD τ).loc main_arg1)) r :=
    funext fun e => Cert.KernelIdeal.HostValue.V1_v8 m ρ c r e
  have h9 : (fun j => biasRow (V1 m ρ) c (ix2 (0 : Fin 1) j)) = fun j => m ((c : Thread nD τ).loc main_arg5) (ix1 j) :=
    funext fun j => Cert.KernelIdeal.HostValue.V1_v9 m ρ c j
  have h2 : wIn (V1 m ρ) c = m ((c : Thread nD τ).loc main_arg2) := Cert.KernelIdeal.HostValue.V1_arg2 m ρ c
  have h3 : wRec (V1 m ρ) c = m ((c : Thread nD τ).loc main_arg3) := Cert.KernelIdeal.HostValue.V1_arg3 m ρ c
  rw [h8, h9, h2, h3]

/-- The result buffer's final contents are the specification's function of the seven argument arrays. -/
theorem result_eq (c : Dev nD) :
    W3 m ρ c (Proc.devRef .tc main_v12)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have e : W3 m ρ c (Proc.devRef .tc main_v12) = outArr (V2 m ρ) c :=
    (W3_arr m ρ c 3).trans (final1 (V2 m ρ) Cert.KernelIdeal.Body.out1_3_apply c)
  rw [e]
  funext i
  obtain ⟨r, v, rfl⟩ : ∃ (r : Fin 64) (v : Fin 32000), i = ix2 r v :=
    ⟨⟨(i 0).val, idx2_lt0 i⟩, ⟨(i 1).val, idx2_lt1 i⟩, by funext a; match a with | ⟨0, _⟩ => rfl | ⟨1, _⟩ => rfl⟩
  rw [result_ix2]
  show outAt (V2 m ρ) c r v = _
  unfold outAt resultAt
  have hh : (fun k => hState (V2 m ρ) c (ix2 r k))
      = hidden (lastEmb (m ((c : Thread nD τ).loc main_arg0)) (m ((c : Thread nD τ).loc main_arg1)) r)
          (m ((c : Thread nD τ).loc main_arg2)) (m ((c : Thread nD τ).loc main_arg3))
          (fun j => m ((c : Thread nD τ).loc main_arg5) (ix1 j)) :=
    funext fun k => hidden_entry m ρ c r k
  have hw : wOut (V2 m ρ) c = m ((c : Thread nD τ).loc main_arg4) :=
    (W2_of_ne m ρ c main_arg4 (by decide)).trans (Cert.KernelIdeal.HostValue.V1_arg4 m ρ c)
  have hb : (fun u => bOut (V2 m ρ) c (ix2 (0 : Fin 1) u)) = fun u => m ((c : Thread nD τ).loc main_arg6) (ix1 u) :=
    funext fun u => (congrFun (W2_of_ne m ρ c main_v10 (by decide)) (ix2 (0 : Fin 1) u)).trans (Cert.KernelIdeal.HostValue.V1_v10 m ρ c u)
  rw [hh, hw, hb]

/-- The run of the idealized kernel's program, its result read: every weakly fair execution terminates with the result
    buffer at the specification's function of the arguments, the arguments unchanged. -/
theorem run : θ_run defs (onTc (τ := τ) (main (F := Ideal))) ⟨m, fun _ => 0, ρ⟩ (fun r => ∀ c : Dev nD,
      r.2.mem ((c.tc : Thread nD τ).loc main_v12)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩)
    (Cert.KernelIdeal.Run.run_main m ρ)

end Cert.KernelIdeal.Result

end
-- ==== Proof.RefValue.lean ====
/-
  The reference computes the specification's function.

  The reference looks up the embedding row of EVERY token (64 batch rows × 512 time steps), pushes every such row through
  the five dense layers `h ↦ tanh (h · W + b)`, keeps time step 511 and applies the affine read-out. A dense layer mixes
  only the entries of one row, so its value at `(b, t, j)` is a function of the row `(b, t, ·)` of the stage before it; by
  induction down the five stages the last layer's row at `(b, 511, ·)` is the five layers of the one looked-up row
  `(b, 511, ·)`, which is the embedding of batch row `b`'s last token. The look-up reads the table's row at the token word
  wrapped (a negative word counts from the end), read signed and clamped into the table. Every sum is a finite sum of
  extended reals over the contracted axis, read in the same order on both sides: no algebraic law is used beyond
  rewriting an index.
-/
import proofs.«411068_j87351044866483_3_alg».proof.Proof.Gen.ReferenceIdeal.Read
import proofs.«411068_j87351044866483_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx

/-! ## The embedding look-up read at an index

The gather takes, for every (batch, time) pair, one whole row of the table: operand axis 0 (the vocabulary) is named by
the start index map with slice size 1, so its coordinate is the start index read signed and clamped into
`[0, 32000 - 1]`; operand axis 1 (the embedding entry) is an offset axis, so its coordinate is the result's last
coordinate. -/

/-- The look-up's dimension numbers. -/
abbrev lookup : GatherDims S32000x1024 S64x512x1 S64x512x1024 :=
  gather_S32000x1024_S64x512x1_S64x512x1024_2_0_n_n_0_2_11024

/-- The start-indices index at which result index `(b, t, e)` reads its one start-index component: `(b, t, 0)`. -/
theorem lookup_siIdx (b : Fin 64) (t : Fin 512) (e : Fin 1024)
    (c : Fin lookup.startIndexMap.length) :
    lookup.siIdx (ix3 b t e) c = ix3 b t (0 : Fin 1) := by
  funext a; refine Fin.ext ?_
  have hc : c.val = 0 := by have h1 : c.val < 1 := c.isLt; omega
  match a with
  | ⟨0, _⟩ => rfl
  | ⟨1, _⟩ => rfl
  | ⟨2, _⟩ => exact hc

/-- Operand axis 0: the clamped start index. -/
theorem lookup_axis0 (idx : IVec S64x512x1 32) (b : Fin 64) (t : Fin 512) (e : Fin 1024) :
    (lookup.operandIdx (ix3 b t e) idx 0).val = min (idx (ix3 b t (0 : Fin 1))).toInt.toNat 31999 := by
  show lookup.start (ix3 b t e) idx 0 + lookup.batchCoord (ix3 b t e) 0 + lookup.offCoord (ix3 b t e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S32000x1024.rank) ∈ lookup.startIndexMap from List.mem_singleton.mpr rfl), lookup_siIdx]
  rfl

/-- Operand axis 1: the result's last coordinate. -/
theorem lookup_axis1 (idx : IVec S64x512x1 32) (b : Fin 64) (t : Fin 512) (e : Fin 1024) :
    (lookup.operandIdx (ix3 b t e) idx 1).val = e.val := by
  show lookup.start (ix3 b t e) idx 1 + lookup.batchCoord (ix3 b t e) 1 + lookup.offCoord (ix3 b t e) 1 = _
  rw [GatherDims.batchCoord_eq_zero _ _ _ List.not_mem_nil]
  unfold GatherDims.start
  rw [dif_neg (show ¬(1 : Fin S32000x1024.rank) ∈ lookup.startIndexMap by decide)]
  unfold GatherDims.offCoord
  rw [dif_pos (show (1 : Fin S32000x1024.rank) ∈ lookup.sKept by decide)]
  simp only [Nat.zero_add, Nat.add_zero]
  rfl

/-- The look-up at `(b, t, e)`: entry `e` of the table's row at the start index `idx (b, t, 0)`, read signed and
    clamped into the table. -/
theorem lookup_apply {α : Type} (x : S32000x1024.Idx → α) (idx : IVec S64x512x1 32)
    (b : Fin 64) (t : Fin 512) (e : Fin 1024) :
    Host.gather lookup x idx (ix3 b t e)
      = x (ix2 (⟨min (idx (ix3 b t (0 : Fin 1))).toInt.toNat 31999, by omega⟩ : Fin 32000) e) := by
  unfold Host.gather
  congr 1
  funext a; refine Fin.ext ?_
  match a with
  | ⟨0, _⟩ => exact lookup_axis0 idx b t e
  | ⟨1, _⟩ => exact lookup_axis1 idx b t e

/-! ## The gathered row

The start index at `(b, t, 0)` is the token word at `(b, t)` with a negative word wrapped to the end of the
vocabulary; the look-up then reads the table's row for that word. -/

/-- The start index the look-up reads at `(b, t, 0)`: the wrapped token word. -/
theorem start_apply (x0 : (⟨S64x512, .i32⟩ : BufTy).Contents (Elt Ideal)) (b : Fin 64) (t : Fin 512) :
    val_main_v5 (F := Ideal) x0 (ix3 b t (0 : Fin 1)) = Cert.LastStep.wrap (x0 (ix2 b t)) := by
  have e : idx_main_v5 (ix3 b t (0 : Fin 1)) = ix2 b t :=
    funext fun a => Fin.ext (by match a with | ⟨0, _⟩ => rfl | ⟨1, _⟩ => rfl)
  rw [val_main_v5_apply, e, val_main_v4_apply, val_main_v1_apply, val_main_v3_apply, val_main_v0_apply,
    val_main_v2_apply, val_main_c_apply, val_main_c_0_apply]
  rfl

/-- The embedding array at `(b, t, e)`: entry `e` of the table's row for the token word at `(b, t)`. -/
theorem emb_apply (x0 : (⟨S64x512, .i32⟩ : BufTy).Contents (Elt Ideal))
    (x1 : (⟨S32000x1024, .f32⟩ : BufTy).Contents (Elt Ideal)) (b : Fin 64) (t : Fin 512) (e : Fin 1024) :
    val_main_v6 (F := Ideal) x0 x1 (ix3 b t e) = x1 (ix2 (Cert.LastStep.row (x0 (ix2 b t))) e) := by
  refine (lookup_apply x1 (val_main_v5 (F := Ideal) x0) b t e).trans ?_
  refine congrArg (fun r : Fin 32000 => x1 (ix2 r e)) (Fin.ext ?_)
  show min (val_main_v5 (F := Ideal) x0 (ix3 b t (0 : Fin 1))).toInt.toNat 31999
    = min (Cert.LastStep.wrap (x0 (ix2 b t))).toInt.toNat 31999
  rw [start_apply]

/-! ## The five dense layers at an index

Each stage `tanh (h · W + b)` reads, at `(b, t, j)`, only the row `(b, t, ·)` of the stage before it: the contraction runs
over that row's entries against column `j` of the weights, the bias is entry `j` of the bias vector, and the sum and the
`tanh` are the extended reals'. -/

/-- The input layer at `(b, t, j)`: a dense layer of the gathered row `(b, t, ·)` with the input weights. -/
theorem layer1_apply (x0 : (⟨S64x512, .i32⟩ : BufTy).Contents (Elt Ideal)) (x1 : (⟨S32000x1024, .f32⟩ : BufTy).Contents (Elt Ideal)) (x2 : (⟨S1024x2048, .f32⟩ : BufTy).Contents (Elt Ideal)) (x5 : (⟨S2048, .f32⟩ : BufTy).Contents (Elt Ideal)) (b : Fin 64) (t : Fin 512) (j : Fin 2048) :
    val_main_v11 (F := Ideal) x0 x1 x2 x5 (ix3 b t j)
      = Cert.LastStep.layer (fun k : Fin 1024 => val_main_v6 (F := Ideal) x0 x1 (ix3 b t k)) x2 (fun u : Fin 2048 => x5 (ix1 u)) j := by
  have el : ∀ k : Fin 1024, lidx_main_v7 (ix3 b t j) k = ix3 b t k := fun k =>
    funext fun a => Fin.ext (by match a with | ⟨0, _⟩ => rfl | ⟨1, _⟩ => rfl | ⟨2, _⟩ => rfl)
  have er : ∀ k : Fin 1024, ridx_main_v7 (ix3 b t j) k = ix2 k j := fun k =>
    funext fun a => Fin.ext (by match a with | ⟨0, _⟩ => rfl | ⟨1, _⟩ => rfl)
  have eb : idx_main_v8 (idx_main_v9 (ix3 b t j)) = ix1 j :=
    funext fun a => Fin.ext (by match a with | ⟨0, _⟩ => rfl)
  rw [val_main_v11_apply, val_main_v10_apply, val_main_v7_apply, val_main_v9_apply, val_main_v8_apply, eb]
  simp only [el, er]
  rfl

/-- The first recurrent layer at `(b, t, j)`: a dense layer of the input layer's row with the recurrent weights. -/
theorem layer2_apply (x0 : (⟨S64x512, .i32⟩ : BufTy).Contents (Elt Ideal)) (x1 : (⟨S32000x1024, .f32⟩ : BufTy).Contents (Elt Ideal)) (x2 : (⟨S1024x2048, .f32⟩ : BufTy).Contents (Elt Ideal)) (x3 : (⟨S2048x2048, .f32⟩ : BufTy).Contents (Elt Ideal)) (x5 : (⟨S2048, .f32⟩ : BufTy).Contents (Elt Ideal)) (b : Fin 64) (t : Fin 512) (j : Fin 2048) :
    val_main_v16 (F := Ideal) x0 x1 x2 x3 x5 (ix3 b t j)
      = Cert.LastStep.layer (fun k : Fin 2048 => val_main_v11 (F := Ideal) x0 x1 x2 x5 (ix3 b t k)) x3 (fun u : Fin 2048 => x5 (ix1 u)) j := by
  have el : ∀ k : Fin 2048, lidx_main_v12 (ix3 b t j) k = ix3 b t k := fun k =>
    funext fun a => Fin.ext (by match a with | ⟨0, _⟩ => rfl | ⟨1, _⟩ => rfl | ⟨2, _⟩ => rfl)
  have er : ∀ k : Fin 2048, ridx_main_v12 (ix3 b t j) k = ix2 k j := fun k =>
    funext fun a => Fin.ext (by match a with | ⟨0, _⟩ => rfl | ⟨1, _⟩ => rfl)
  have eb : idx_main_v13 (idx_main_v14 (ix3 b t j)) = ix1 j :=
    funext fun a => Fin.ext (by match a with | ⟨0, _⟩ => rfl)
  rw [val_main_v16_apply, val_main_v15_apply, val_main_v12_apply, val_main_v14_apply, val_main_v13_apply, eb]
  simp only [el, er]
  rfl

/-- The second recurrent layer at `(b, t, j)`. -/
theorem layer3_apply (x0 : (⟨S64x512, .i32⟩ : BufTy).Contents (Elt Ideal)) (x1 : (⟨S32000x1024, .f32⟩ : BufTy).Contents (Elt Ideal)) (x2 : (⟨S1024x2048, .f32⟩ : BufTy).Contents (Elt Ideal)) (x3 : (⟨S2048x2048, .f32⟩ : BufTy).Contents (Elt Ideal)) (x5 : (⟨S2048, .f32⟩ : BufTy).Contents (Elt Ideal)) (b : Fin 64) (t : Fin 512) (j : Fin 2048) :
    val_main_v21 (F := Ideal) x0 x1 x2 x3 x5 (ix3 b t j)
      = Cert.LastStep.layer (fun k : Fin 2048 => val_main_v16 (F := Ideal) x0 x1 x2 x3 x5 (ix3 b t k)) x3 (fun u : Fin 2048 => x5 (ix1 u)) j := by
  have el : ∀ k : Fin 2048, lidx_main_v17 (ix3 b t j) k = ix3 b t k := fun k =>
    funext fun a => Fin.ext (by match a with | ⟨0, _⟩ => rfl | ⟨1, _⟩ => rfl | ⟨2, _⟩ => rfl)
  have er : ∀ k : Fin 2048, ridx_main_v17 (ix3 b t j) k = ix2 k j := fun k =>
    funext fun a => Fin.ext (by match a with | ⟨0, _⟩ => rfl | ⟨1, _⟩ => rfl)
  have eb : idx_main_v18 (idx_main_v19 (ix3 b t j)) = ix1 j :=
    funext fun a => Fin.ext (by match a with | ⟨0, _⟩ => rfl)
  rw [val_main_v21_apply, val_main_v20_apply, val_main_v17_apply, val_main_v19_apply, val_main_v18_apply, eb]
  simp only [el, er]
  rfl

/-- The third recurrent layer at `(b, t, j)`. -/
theorem layer4_apply (x0 : (⟨S64x512, .i32⟩ : BufTy).Contents (Elt Ideal)) (x1 : (⟨S32000x1024, .f32⟩ : BufTy).Contents (Elt Ideal)) (x2 : (⟨S1024x2048, .f32⟩ : BufTy).Contents (Elt Ideal)) (x3 : (⟨S2048x2048, .f32⟩ : BufTy).Contents (Elt Ideal)) (x5 : (⟨S2048, .f32⟩ : BufTy).Contents (Elt Ideal)) (b : Fin 64) (t : Fin 512) (j : Fin 2048) :
    val_main_v26 (F := Ideal) x0 x1 x2 x3 x5 (ix3 b t j)
      = Cert.LastStep.layer (fun k : Fin 2048 => val_main_v21 (F := Ideal) x0 x1 x2 x3 x5 (ix3 b t k)) x3 (fun u : Fin 2048 => x5 (ix1 u)) j := by
  have el : ∀ k : Fin 2048, lidx_main_v22 (ix3 b t j) k = ix3 b t k := fun k =>
    funext fun a => Fin.ext (by match a with | ⟨0, _⟩ => rfl | ⟨1, _⟩ => rfl | ⟨2, _⟩ => rfl)
  have er : ∀ k : Fin 2048, ridx_main_v22 (ix3 b t j) k = ix2 k j := fun k =>
    funext fun a => Fin.ext (by match a with | ⟨0, _⟩ => rfl | ⟨1, _⟩ => rfl)
  have eb : idx_main_v23 (idx_main_v24 (ix3 b t j)) = ix1 j :=
    funext fun a => Fin.ext (by match a with | ⟨0, _⟩ => rfl)
  rw [val_main_v26_apply, val_main_v25_apply, val_main_v22_apply, val_main_v24_apply, val_main_v23_apply, eb]
  simp only [el, er]
  rfl

/-- The fourth recurrent layer at `(b, t, j)`. -/
theorem layer5_apply (x0 : (⟨S64x512, .i32⟩ : BufTy).Contents (Elt Ideal)) (x1 : (⟨S32000x1024, .f32⟩ : BufTy).Contents (Elt Ideal)) (x2 : (⟨S1024x2048, .f32⟩ : BufTy).Contents (Elt Ideal)) (x3 : (⟨S2048x2048, .f32⟩ : BufTy).Contents (Elt Ideal)) (x5 : (⟨S2048, .f32⟩ : BufTy).Contents (Elt Ideal)) (b : Fin 64) (t : Fin 512) (j : Fin 2048) :
    val_main_v31 (F := Ideal) x0 x1 x2 x3 x5 (ix3 b t j)
      = Cert.LastStep.layer (fun k : Fin 2048 => val_main_v26 (F := Ideal) x0 x1 x2 x3 x5 (ix3 b t k)) x3 (fun u : Fin 2048 => x5 (ix1 u)) j := by
  have el : ∀ k : Fin 2048, lidx_main_v27 (ix3 b t j) k = ix3 b t k := fun k =>
    funext fun a => Fin.ext (by match a with | ⟨0, _⟩ => rfl | ⟨1, _⟩ => rfl | ⟨2, _⟩ => rfl)
  have er : ∀ k : Fin 2048, ridx_main_v27 (ix3 b t j) k = ix2 k j := fun k =>
    funext fun a => Fin.ext (by match a with | ⟨0, _⟩ => rfl | ⟨1, _⟩ => rfl)
  have eb : idx_main_v28 (idx_main_v29 (ix3 b t j)) = ix1 j :=
    funext fun a => Fin.ext (by match a with | ⟨0, _⟩ => rfl)
  rw [val_main_v31_apply, val_main_v30_apply, val_main_v27_apply, val_main_v29_apply, val_main_v28_apply, eb]
  simp only [el, er]
  rfl

/-! ## The last time step and the read-out

A layer's row `(b, t, ·)` is a function of the row `(b, t, ·)` of the stage before it alone, so the last layer's row at the
last time step is the five layers applied to the one gathered row `(b, 511, ·)`, the embedding of batch row `b`'s last
token. The slice keeps time step 511, the reshape drops the unit axis, and the read-out is the affine map of that row. -/

/-- The gathered row at the last time step is the embedding of the batch row's last token. -/
theorem emb_last (x0 : (⟨S64x512, .i32⟩ : BufTy).Contents (Elt Ideal))
    (x1 : (⟨S32000x1024, .f32⟩ : BufTy).Contents (Elt Ideal)) (b : Fin 64) :
    (fun e : Fin 1024 => val_main_v6 (F := Ideal) x0 x1 (ix3 b (511 : Fin 512) e)) = Cert.LastStep.lastEmb x0 x1 b :=
  funext fun e => emb_apply x0 x1 b (511 : Fin 512) e

/-- The last layer's row at the last time step: the five layers of the last token's embedding. -/
theorem hidden_last (x0 : (⟨S64x512, .i32⟩ : BufTy).Contents (Elt Ideal)) (x1 : (⟨S32000x1024, .f32⟩ : BufTy).Contents (Elt Ideal)) (x2 : (⟨S1024x2048, .f32⟩ : BufTy).Contents (Elt Ideal)) (x3 : (⟨S2048x2048, .f32⟩ : BufTy).Contents (Elt Ideal)) (x5 : (⟨S2048, .f32⟩ : BufTy).Contents (Elt Ideal)) (b : Fin 64) :
    (fun j : Fin 2048 => val_main_v31 (F := Ideal) x0 x1 x2 x3 x5 (ix3 b (511 : Fin 512) j))
      = Cert.LastStep.hidden (Cert.LastStep.lastEmb x0 x1 b) x2 x3 (fun u : Fin 2048 => x5 (ix1 u)) := by
  unfold Cert.LastStep.hidden
  rw [funext (layer5_apply x0 x1 x2 x3 x5 b (511 : Fin 512)), funext (layer4_apply x0 x1 x2 x3 x5 b (511 : Fin 512)),
    funext (layer3_apply x0 x1 x2 x3 x5 b (511 : Fin 512)), funext (layer2_apply x0 x1 x2 x3 x5 b (511 : Fin 512)),
    funext (layer1_apply x0 x1 x2 x5 b (511 : Fin 512)), emb_last]

/-- The result at `(b, v)`: the slice and the reshape read the last layer at `(b, 511, ·)`, the last contraction runs over
    that row against column `v` of the read-out weights, and the bias is entry `v` of the read-out bias. -/
theorem result_apply (x0 : (⟨S64x512, .i32⟩ : BufTy).Contents (Elt Ideal)) (x1 : (⟨S32000x1024, .f32⟩ : BufTy).Contents (Elt Ideal)) (x2 : (⟨S1024x2048, .f32⟩ : BufTy).Contents (Elt Ideal)) (x3 : (⟨S2048x2048, .f32⟩ : BufTy).Contents (Elt Ideal)) (x4 : (⟨S2048x32000, .f32⟩ : BufTy).Contents (Elt Ideal)) (x5 : (⟨S2048, .f32⟩ : BufTy).Contents (Elt Ideal)) (x6 : (⟨S32000, .f32⟩ : BufTy).Contents (Elt Ideal)) (b : Fin 64) (v : Fin 32000) :
    val_main_v37 (F := Ideal) x0 x1 x2 x3 x4 x5 x6 (ix2 b v) = Cert.LastStep.resultAt x0 x1 x2 x3 x4 x5 x6 b v := by
  have el : ∀ k : Fin 2048, idx_main_v32 (idx_main_v33 (lidx_main_v34 (ix2 b v) k)) = ix3 b (511 : Fin 512) k := fun k =>
    funext fun a => Fin.ext (by
      have hk : k.val < 2048 := k.isLt
      match a with
      | ⟨0, _⟩ => show (b.val * 2048 + k.val) / 2048 = b.val; omega
      | ⟨1, _⟩ => rfl
      | ⟨2, _⟩ => show (b.val * 2048 + k.val) % 2048 = k.val; omega)
  have er : ∀ k : Fin 2048, ridx_main_v34 (ix2 b v) k = ix2 k v := fun k =>
    funext fun a => Fin.ext (by match a with | ⟨0, _⟩ => rfl | ⟨1, _⟩ => rfl)
  have eb : idx_main_v35 (idx_main_v36 (ix2 b v)) = ix1 v :=
    funext fun a => Fin.ext (by match a with | ⟨0, _⟩ => rfl)
  rw [val_main_v37_apply, val_main_v34_apply, val_main_v36_apply, val_main_v35_apply, eb]
  simp only [val_main_v33_apply, val_main_v32_apply, el, er]
  unfold Cert.LastStep.resultAt
  rw [← hidden_last x0 x1 x2 x3 x5 b]
  rfl

/-- The reference's result array is the specification's. -/
theorem ref_result (x0 : (⟨S64x512, .i32⟩ : BufTy).Contents (Elt Ideal)) (x1 : (⟨S32000x1024, .f32⟩ : BufTy).Contents (Elt Ideal)) (x2 : (⟨S1024x2048, .f32⟩ : BufTy).Contents (Elt Ideal)) (x3 : (⟨S2048x2048, .f32⟩ : BufTy).Contents (Elt Ideal)) (x4 : (⟨S2048x32000, .f32⟩ : BufTy).Contents (Elt Ideal)) (x5 : (⟨S2048, .f32⟩ : BufTy).Contents (Elt Ideal)) (x6 : (⟨S32000, .f32⟩ : BufTy).Contents (Elt Ideal)) :
    val_main_v37 (F := Ideal) x0 x1 x2 x3 x4 x5 x6 = Cert.LastStep.result x0 x1 x2 x3 x4 x5 x6 := by
  funext i
  obtain ⟨b, v, rfl⟩ : ∃ (b : Fin 64) (v : Fin 32000), i = ix2 b v :=
    ⟨⟨(i 0).val, idx2_lt0 i⟩, ⟨(i 1).val, idx2_lt1 i⟩, by funext a; match a with | ⟨0, _⟩ => rfl | ⟨1, _⟩ => rfl⟩
  rw [Cert.LastStep.result_ix2]
  exact result_apply x0 x1 x2 x3 x4 x5 x6 b v

end Cert.ReferenceIdeal.RefValue

end
-- ==== Proof.lean ====
/-
  The proof of `Cert.Claim`: the kernel's program and the reference compute the same function at the ideal values.

  The reference embeds every token of a [64, 512] batch, applies five dense layers `h ↦ tanh (h · W + b)` to every
  (batch, time) row and reads out the LAST time step through an affine map.  A layer never mixes two rows, so the last
  time step's row is the five layers of the last token's embedding alone; the kernel computes exactly that, on the
  embedding of `X[:, 511]` only: a first pallas_call runs the five layers on two blocks of 32 batch rows, a second one
  the read-out on 25 blocks of 1280 vocabulary columns.  Both results are `Cert.LastStep.result` of the seven argument
  arrays (Proof/Spec.lean), entry by entry: the matrix products are the same finite sums over the contracted axis, the
  changes of float format are the identity on the extended reals, `tanh` is one function on both sides, and a token
  word selects the same embedding row on both sides (wrapped when negative, clamped into the table).  No law beyond
  re-indexing is used, so the precondition is not opened.

  Modules: Proof/Spec.lean (the function), Proof/RefValue.lean (the reference's stages read at an index),
  Proof/KBody.lean (the two kernel bodies read at an index), Proof/KHost.lean (the host operations before the first
  pallas_call), Proof/KArr.lean (each pallas_call's output array from its blocks), Proof/KRun.lean (the program's run
  with the result buffer kept), Proof/KValue.lean (the kernel's result as the function).
-/
import proofs.«411068_j87351044866483_3_alg».proof.Defs
import proofs.«411068_j87351044866483_3_alg».proof.Proof.Gen.Kernel
import proofs.«411068_j87351044866483_3_alg».proof.Proof.Gen.Kernel.Frame
import proofs.«411068_j87351044866483_3_alg».proof.Proof.Gen.KernelIdeal
import proofs.«411068_j87351044866483_3_alg».proof.Proof.Gen.KernelIdeal.Frame
import proofs.«411068_j87351044866483_3_alg».proof.Proof.Gen.ReferenceIdeal
import proofs.«411068_j87351044866483_3_alg».proof.Proof.Gen.ReferenceIdeal.Run
import proofs.«411068_j87351044866483_3_alg».proof.Proof.Gen.ReferenceIdeal.Read
import proofs.«411068_j87351044866483_3_alg».proof.Proof.Gen.Pre_finite_inputs
import proofs.«411068_j87351044866483_3_alg».proof.Proof.KValue
import proofs.«411068_j87351044866483_3_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read at the ideal values. -/
theorem frame_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result buffer at `Cert.LastStep.result` of the
    arguments: the kernel's by Proof/KValue.lean, the reference's by its run and Proof/RefValue.lean. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.ref_result,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
